-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x32x68x120 : Shape := ⟨4, ![8, 32, 68, 120]⟩
abbrev S_ : Shape := ⟨0, ![]⟩

class Facts : Prop where
  bcast_S_S8x32x68x120 : S_.BroadcastsInDim S8x32x68x120 (![] : Fin 0 → Fin S8x32x68x120.rank)
  reducesTo_S8x32x68x120_S_d0_1_2_3 : S8x32x68x120.ReducesTo [0, 1, 2, 3] S_
  h_S_ : 0 < S_.numel

variable [Facts]

def fn {F : FTy → Type} [FloatOps F] (main_arg0 : FVec F S8x32x68x120 .f32) (main_arg1 : FVec F S8x32x68x120 .f32) : IVec S_ 1 :=
  let main_v0 : FVec F S8x32x68x120 .f32 := Host.absf main_arg0
  let main_cst : FVec F S_ .f32 := constant S_ .f32 0x7F800000#32
  let main_v1 : FVec F S8x32x68x120 .f32 := broadcastInDim S8x32x68x120 ![] bcast_S_S8x32x68x120 main_cst
  let main_v2 : IVec S8x32x68x120 1 := cmpf .olt main_v0 main_v1
  let main_c : IVec S_ 1 := constantI S_ 1 1#1
  let main_v3 : IVec S_ 1 := (fun x v => Host.reduce IntOp.andi x v reducesTo_S8x32x68x120_S_d0_1_2_3 h_S_) main_v2 main_c
  let main_v4 : FVec F S8x32x68x120 .f32 := Host.absf main_arg1
  let main_cst_0 : FVec F S_ .f32 := constant S_ .f32 0x7F800000#32
  let main_v5 : FVec F S8x32x68x120 .f32 := broadcastInDim S8x32x68x120 ![] bcast_S_S8x32x68x120 main_cst_0
  let main_v6 : IVec S8x32x68x120 1 := cmpf .olt main_v4 main_v5
  let main_c_1 : IVec S_ 1 := constantI S_ 1 1#1
  let main_v7 : IVec S_ 1 := (fun x v => Host.reduce IntOp.andi x v reducesTo_S8x32x68x120_S_d0_1_2_3 h_S_) main_v6 main_c_1
  let main_v8 : IVec S_ 1 := andi main_v3 main_v7
  main_v8
-- ==== Kernel.lean ====
abbrev S8x32x68x120 : Shape := ⟨4, ![8, 32, 68, 120]⟩
abbrev S8x32x24x68x120 : Shape := ⟨5, ![8, 32, 24, 68, 120]⟩
abbrev S1x8x68x120 : Shape := ⟨4, ![1, 8, 68, 120]⟩
abbrev S1x8x24x68x120 : Shape := ⟨5, ![1, 8, 24, 68, 120]⟩
abbrev S8x68x120 : Shape := ⟨3, ![8, 68, 120]⟩
abbrev S1x8x1x68x120 : Shape := ⟨5, ![1, 8, 1, 68, 120]⟩
abbrev S8x68x119 : Shape := ⟨3, ![8, 68, 119]⟩
abbrev S8x68x1 : Shape := ⟨3, ![8, 68, 1]⟩
abbrev S8x68x118 : Shape := ⟨3, ![8, 68, 118]⟩
abbrev S8x68x2 : Shape := ⟨3, ![8, 68, 2]⟩
abbrev S8x68x117 : Shape := ⟨3, ![8, 68, 117]⟩
abbrev S8x68x3 : Shape := ⟨3, ![8, 68, 3]⟩
abbrev S8x68x116 : Shape := ⟨3, ![8, 68, 116]⟩
abbrev S8x68x4 : Shape := ⟨3, ![8, 68, 4]⟩
abbrev S8x68x115 : Shape := ⟨3, ![8, 68, 115]⟩
abbrev S8x68x5 : Shape := ⟨3, ![8, 68, 5]⟩
abbrev S8x68x114 : Shape := ⟨3, ![8, 68, 114]⟩
abbrev S8x68x6 : Shape := ⟨3, ![8, 68, 6]⟩
abbrev S8x68x113 : Shape := ⟨3, ![8, 68, 113]⟩
abbrev S8x68x7 : Shape := ⟨3, ![8, 68, 7]⟩
abbrev S8x68x112 : Shape := ⟨3, ![8, 68, 112]⟩
abbrev S8x68x8 : Shape := ⟨3, ![8, 68, 8]⟩
abbrev S8x68x111 : Shape := ⟨3, ![8, 68, 111]⟩
abbrev S8x68x9 : Shape := ⟨3, ![8, 68, 9]⟩
abbrev S8x68x110 : Shape := ⟨3, ![8, 68, 110]⟩
abbrev S8x68x10 : Shape := ⟨3, ![8, 68, 10]⟩
abbrev S8x68x109 : Shape := ⟨3, ![8, 68, 109]⟩
abbrev S8x68x11 : Shape := ⟨3, ![8, 68, 11]⟩
abbrev S8x68x108 : Shape := ⟨3, ![8, 68, 108]⟩
abbrev S8x68x12 : Shape := ⟨3, ![8, 68, 12]⟩
abbrev S8x68x107 : Shape := ⟨3, ![8, 68, 107]⟩
abbrev S8x68x13 : Shape := ⟨3, ![8, 68, 13]⟩
abbrev S8x68x106 : Shape := ⟨3, ![8, 68, 106]⟩
abbrev S8x68x14 : Shape := ⟨3, ![8, 68, 14]⟩
abbrev S8x68x105 : Shape := ⟨3, ![8, 68, 105]⟩
abbrev S8x68x15 : Shape := ⟨3, ![8, 68, 15]⟩
abbrev S8x68x104 : Shape := ⟨3, ![8, 68, 104]⟩
abbrev S8x68x16 : Shape := ⟨3, ![8, 68, 16]⟩
abbrev S8x68x103 : Shape := ⟨3, ![8, 68, 103]⟩
abbrev S8x68x17 : Shape := ⟨3, ![8, 68, 17]⟩
abbrev S8x68x102 : Shape := ⟨3, ![8, 68, 102]⟩
abbrev S8x68x18 : Shape := ⟨3, ![8, 68, 18]⟩
abbrev S8x68x101 : Shape := ⟨3, ![8, 68, 101]⟩
abbrev S8x68x19 : Shape := ⟨3, ![8, 68, 19]⟩
abbrev S8x68x100 : Shape := ⟨3, ![8, 68, 100]⟩
abbrev S8x68x20 : Shape := ⟨3, ![8, 68, 20]⟩
abbrev S8x68x99 : Shape := ⟨3, ![8, 68, 99]⟩
abbrev S8x68x21 : Shape := ⟨3, ![8, 68, 21]⟩
abbrev S8x68x98 : Shape := ⟨3, ![8, 68, 98]⟩
abbrev S8x68x22 : Shape := ⟨3, ![8, 68, 22]⟩
abbrev S8x68x97 : Shape := ⟨3, ![8, 68, 97]⟩
abbrev S8x68x23 : Shape := ⟨3, ![8, 68, 23]⟩

abbrev nBuf : Space → Nat
  | .hbm => 3
  | .vmem => 6
  | .smem => 0
  | _ => 0

abbrev bufTy : (tb : Table) → Fin (tcTables nBuf tb) → BufTy
  | .hbm, ⟨0, _⟩ => ⟨S8x32x68x120, .f32⟩
  | .hbm, ⟨1, _⟩ => ⟨S8x32x68x120, .f32⟩
  | .hbm, ⟨2, _⟩ => ⟨S8x32x24x68x120, .f32⟩
  | .local _ .vmem, ⟨0, _⟩ => ⟨S1x8x68x120, .f32⟩
  | .local _ .vmem, ⟨1, _⟩ => ⟨S1x8x68x120, .f32⟩
  | .local _ .vmem, ⟨2, _⟩ => ⟨S1x8x68x120, .f32⟩
  | .local _ .vmem, ⟨3, _⟩ => ⟨S1x8x68x120, .f32⟩
  | .local _ .vmem, ⟨4, _⟩ => ⟨S1x8x24x68x120, .f32⟩
  | .local _ .vmem, ⟨5, _⟩ => ⟨S1x8x24x68x120, .f32⟩
  | _, _ => ⟨S8x32x68x120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S1x8x68x120 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x68x120 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x24x68x120 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x8x68x120_S1x8x68x120_0_0_0_0 : ∀ a, (![0, 0, 0, 0] : Fin 4 → Nat) a + S1x8x68x120.size a ≤ S1x8x68x120.size a
  h_S1x8x68x120 : 0 < S1x8x68x120.numel
  shapeCasts_S1x8x68x120_S8x68x120 : S1x8x68x120.ShapeCasts S8x68x120
  iota_S8x68x120_d2_w32 : S8x68x120.Iotas .tc 32 [2]
  natLt_1_32 : 1 < 32
  inb_S1x8x24x68x120_S1x8x1x68x120_0_0_0_0_0 : ∀ a, (![0, 0, 0, 0, 0] : Fin 5 → Nat) a + S1x8x1x68x120.size a ≤ S1x8x24x68x120.size a
  h_S1x8x1x68x120 : 0 < S1x8x1x68x120.numel
  shapeCasts_S1x8x1x68x120_S8x68x120 : S1x8x1x68x120.ShapeCasts S8x68x120
  shapeCasts_S8x68x120_S1x8x1x68x120 : S8x68x120.ShapeCasts S1x8x1x68x120
  slices_S8x68x120_o0_0_0_S8x68x119 : S8x68x120.Slices ![0, 0, 0] S8x68x119
  concatenates_S8x68x1_S8x68x119_S8x68x120_d2 : Shape.Concatenates [S8x68x1, S8x68x119] S8x68x120 2
  inb_S1x8x24x68x120_S1x8x1x68x120_0_0_1_0_0 : ∀ a, (![0, 0, 1, 0, 0] : Fin 5 → Nat) a + S1x8x1x68x120.size a ≤ S1x8x24x68x120.size a
  slices_S8x68x120_o0_0_0_S8x68x118 : S8x68x120.Slices ![0, 0, 0] S8x68x118
  concatenates_S8x68x2_S8x68x118_S8x68x120_d2 : Shape.Concatenates [S8x68x2, S8x68x118] S8x68x120 2
  inb_S1x8x24x68x120_S1x8x1x68x120_0_0_2_0_0 : ∀ a, (![0, 0, 2, 0, 0] : Fin 5 → Nat) a + S1x8x1x68x120.size a ≤ S1x8x24x68x120.size a
  slices_S8x68x120_o0_0_0_S8x68x117 : S8x68x120.Slices ![0, 0, 0] S8x68x117
  concatenates_S8x68x3_S8x68x117_S8x68x120_d2 : Shape.Concatenates [S8x68x3, S8x68x117] S8x68x120 2
  inb_S1x8x24x68x120_S1x8x1x68x120_0_0_3_0_0 : ∀ a, (![0, 0, 3, 0, 0] : Fin 5 → Nat) a + S1x8x1x68x120.size a ≤ S1x8x24x68x120.size a
  slices_S8x68x120_o0_0_0_S8x68x116 : S8x68x120.Slices ![0, 0, 0] S8x68x116
  concatenates_S8x68x4_S8x68x116_S8x68x120_d2 : Shape.Concatenates [S8x68x4, S8x68x116] S8x68x120 2
  inb_S1x8x24x68x120_S1x8x1x68x120_0_0_4_0_0 : ∀ a, (![0, 0, 4, 0, 0] : Fin 5 → Nat) a + S1x8x1x68x120.size a ≤ S1x8x24x68x120.size a
  slices_S8x68x120_o0_0_0_S8x68x115 : S8x68x120.Slices ![0, 0, 0] S8x68x115
  concatenates_S8x68x5_S8x68x115_S8x68x120_d2 : Shape.Concatenates [S8x68x5, S8x68x115] S8x68x120 2
  inb_S1x8x24x68x120_S1x8x1x68x120_0_0_5_0_0 : ∀ a, (![0, 0, 5, 0, 0] : Fin 5 → Nat) a + S1x8x1x68x120.size a ≤ S1x8x24x68x120.size a
  slices_S8x68x120_o0_0_0_S8x68x114 : S8x68x120.Slices ![0, 0, 0] S8x68x114
  concatenates_S8x68x6_S8x68x114_S8x68x120_d2 : Shape.Concatenates [S8x68x6, S8x68x114] S8x68x120 2
  inb_S1x8x24x68x120_S1x8x1x68x120_0_0_6_0_0 : ∀ a, (![0, 0, 6, 0, 0] : Fin 5 → Nat) a + S1x8x1x68x120.size a ≤ S1x8x24x68x120.size a
  slices_S8x68x120_o0_0_0_S8x68x113 : S8x68x120.Slices ![0, 0, 0] S8x68x113
  concatenates_S8x68x7_S8x68x113_S8x68x120_d2 : Shape.Concatenates [S8x68x7, S8x68x113] S8x68x120 2
  inb_S1x8x24x68x120_S1x8x1x68x120_0_0_7_0_0 : ∀ a, (![0, 0, 7, 0, 0] : Fin 5 → Nat) a + S1x8x1x68x120.size a ≤ S1x8x24x68x120.size a
  slices_S8x68x120_o0_0_0_S8x68x112 : S8x68x120.Slices ![0, 0, 0] S8x68x112
  concatenates_S8x68x8_S8x68x112_S8x68x120_d2 : Shape.Concatenates [S8x68x8, S8x68x112] S8x68x120 2
  inb_S1x8x24x68x120_S1x8x1x68x120_0_0_8_0_0 : ∀ a, (![0, 0, 8, 0, 0] : Fin 5 → Nat) a + S1x8x1x68x120.size a ≤ S1x8x24x68x120.size a
  slices_S8x68x120_o0_0_0_S8x68x111 : S8x68x120.Slices ![0, 0, 0] S8x68x111
  concatenates_S8x68x9_S8x68x111_S8x68x120_d2 : Shape.Concatenates [S8x68x9, S8x68x111] S8x68x120 2
  inb_S1x8x24x68x120_S1x8x1x68x120_0_0_9_0_0 : ∀ a, (![0, 0, 9, 0, 0] : Fin 5 → Nat) a + S1x8x1x68x120.size a ≤ S1x8x24x68x120.size a
  slices_S8x68x120_o0_0_0_S8x68x110 : S8x68x120.Slices ![0, 0, 0] S8x68x110
  concatenates_S8x68x10_S8x68x110_S8x68x120_d2 : Shape.Concatenates [S8x68x10, S8x68x110] S8x68x120 2
  inb_S1x8x24x68x120_S1x8x1x68x120_0_0_10_0_0 : ∀ a, (![0, 0, 10, 0, 0] : Fin 5 → Nat) a + S1x8x1x68x120.size a ≤ S1x8x24x68x120.size a
  slices_S8x68x120_o0_0_0_S8x68x109 : S8x68x120.Slices ![0, 0, 0] S8x68x109
  concatenates_S8x68x11_S8x68x109_S8x68x120_d2 : Shape.Concatenates [S8x68x11, S8x68x109] S8x68x120 2
  inb_S1x8x24x68x120_S1x8x1x68x120_0_0_11_0_0 : ∀ a, (![0, 0, 11, 0, 0] : Fin 5 → Nat) a + S1x8x1x68x120.size a ≤ S1x8x24x68x120.size a
  slices_S8x68x120_o0_0_0_S8x68x108 : S8x68x120.Slices ![0, 0, 0] S8x68x108
  concatenates_S8x68x12_S8x68x108_S8x68x120_d2 : Shape.Concatenates [S8x68x12, S8x68x108] S8x68x120 2
  inb_S1x8x24x68x120_S1x8x1x68x120_0_0_12_0_0 : ∀ a, (![0, 0, 12, 0, 0] : Fin 5 → Nat) a + S1x8x1x68x120.size a ≤ S1x8x24x68x120.size a
  slices_S8x68x120_o0_0_0_S8x68x107 : S8x68x120.Slices ![0, 0, 0] S8x68x107
  concatenates_S8x68x13_S8x68x107_S8x68x120_d2 : Shape.Concatenates [S8x68x13, S8x68x107] S8x68x120 2
  inb_S1x8x24x68x120_S1x8x1x68x120_0_0_13_0_0 : ∀ a, (![0, 0, 13, 0, 0] : Fin 5 → Nat) a + S1x8x1x68x120.size a ≤ S1x8x24x68x120.size a
  slices_S8x68x120_o0_0_0_S8x68x106 : S8x68x120.Slices ![0, 0, 0] S8x68x106
  concatenates_S8x68x14_S8x68x106_S8x68x120_d2 : Shape.Concatenates [S8x68x14, S8x68x106] S8x68x120 2
  inb_S1x8x24x68x120_S1x8x1x68x120_0_0_14_0_0 : ∀ a, (![0, 0, 14, 0, 0] : Fin 5 → Nat) a + S1x8x1x68x120.size a ≤ S1x8x24x68x120.size a
  slices_S8x68x120_o0_0_0_S8x68x105 : S8x68x120.Slices ![0, 0, 0] S8x68x105
  concatenates_S8x68x15_S8x68x105_S8x68x120_d2 : Shape.Concatenates [S8x68x15, S8x68x105] S8x68x120 2
  inb_S1x8x24x68x120_S1x8x1x68x120_0_0_15_0_0 : ∀ a, (![0, 0, 15, 0, 0] : Fin 5 → Nat) a + S1x8x1x68x120.size a ≤ S1x8x24x68x120.size a
  slices_S8x68x120_o0_0_0_S8x68x104 : S8x68x120.Slices ![0, 0, 0] S8x68x104
  concatenates_S8x68x16_S8x68x104_S8x68x120_d2 : Shape.Concatenates [S8x68x16, S8x68x104] S8x68x120 2
  inb_S1x8x24x68x120_S1x8x1x68x120_0_0_16_0_0 : ∀ a, (![0, 0, 16, 0, 0] : Fin 5 → Nat) a + S1x8x1x68x120.size a ≤ S1x8x24x68x120.size a
  slices_S8x68x120_o0_0_0_S8x68x103 : S8x68x120.Slices ![0, 0, 0] S8x68x103
  concatenates_S8x68x17_S8x68x103_S8x68x120_d2 : Shape.Concatenates [S8x68x17, S8x68x103] S8x68x120 2
  inb_S1x8x24x68x120_S1x8x1x68x120_0_0_17_0_0 : ∀ a, (![0, 0, 17, 0, 0] : Fin 5 → Nat) a + S1x8x1x68x120.size a ≤ S1x8x24x68x120.size a
  slices_S8x68x120_o0_0_0_S8x68x102 : S8x68x120.Slices ![0, 0, 0] S8x68x102
  concatenates_S8x68x18_S8x68x102_S8x68x120_d2 : Shape.Concatenates [S8x68x18, S8x68x102] S8x68x120 2
  inb_S1x8x24x68x120_S1x8x1x68x120_0_0_18_0_0 : ∀ a, (![0, 0, 18, 0, 0] : Fin 5 → Nat) a + S1x8x1x68x120.size a ≤ S1x8x24x68x120.size a
  slices_S8x68x120_o0_0_0_S8x68x101 : S8x68x120.Slices ![0, 0, 0] S8x68x101
  concatenates_S8x68x19_S8x68x101_S8x68x120_d2 : Shape.Concatenates [S8x68x19, S8x68x101] S8x68x120 2
  inb_S1x8x24x68x120_S1x8x1x68x120_0_0_19_0_0 : ∀ a, (![0, 0, 19, 0, 0] : Fin 5 → Nat) a + S1x8x1x68x120.size a ≤ S1x8x24x68x120.size a
  slices_S8x68x120_o0_0_0_S8x68x100 : S8x68x120.Slices ![0, 0, 0] S8x68x100
  concatenates_S8x68x20_S8x68x100_S8x68x120_d2 : Shape.Concatenates [S8x68x20, S8x68x100] S8x68x120 2
  inb_S1x8x24x68x120_S1x8x1x68x120_0_0_20_0_0 : ∀ a, (![0, 0, 20, 0, 0] : Fin 5 → Nat) a + S1x8x1x68x120.size a ≤ S1x8x24x68x120.size a
  slices_S8x68x120_o0_0_0_S8x68x99 : S8x68x120.Slices ![0, 0, 0] S8x68x99
  concatenates_S8x68x21_S8x68x99_S8x68x120_d2 : Shape.Concatenates [S8x68x21, S8x68x99] S8x68x120 2
  inb_S1x8x24x68x120_S1x8x1x68x120_0_0_21_0_0 : ∀ a, (![0, 0, 21, 0, 0] : Fin 5 → Nat) a + S1x8x1x68x120.size a ≤ S1x8x24x68x120.size a
  slices_S8x68x120_o0_0_0_S8x68x98 : S8x68x120.Slices ![0, 0, 0] S8x68x98
  concatenates_S8x68x22_S8x68x98_S8x68x120_d2 : Shape.Concatenates [S8x68x22, S8x68x98] S8x68x120 2
  inb_S1x8x24x68x120_S1x8x1x68x120_0_0_22_0_0 : ∀ a, (![0, 0, 22, 0, 0] : Fin 5 → Nat) a + S1x8x1x68x120.size a ≤ S1x8x24x68x120.size a
  slices_S8x68x120_o0_0_0_S8x68x97 : S8x68x120.Slices ![0, 0, 0] S8x68x97
  concatenates_S8x68x23_S8x68x97_S8x68x120_d2 : Shape.Concatenates [S8x68x23, S8x68x97] S8x68x120 2
  inb_S1x8x24x68x120_S1x8x1x68x120_0_0_23_0_0 : ∀ a, (![0, 0, 23, 0, 0] : Fin 5 → Nat) a + S1x8x1x68x120.size a ≤ S1x8x24x68x120.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x68x120.size a ≤ S8x32x68x120.size a
  hwx0_0 : ∀ i : grid0.Coords, EltTy.bits .f32 = 32 ∨ (Rect.block (s := S8x32x68x120) S1x8x68x120.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x68x120.size a ≤ S8x32x68x120.size a
  hwx0_1 : ∀ i : grid0.Coords, EltTy.bits .f32 = 32 ∨ (Rect.block (s := S8x32x68x120) S1x8x68x120.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x24x68x120.size a ≤ S8x32x24x68x120.size a
  hwx0_2 : ∀ i : grid0.Coords, EltTy.bits .f32 = 32 ∨ (Rect.block (s := S8x32x24x68x120) S1x8x24x68x120.size (cc0_transform_2 i) (hinb0_2 i)).WholeWords (EltTy.packing .f32)

variable [Facts₀]

abbrev win0_0 : Pipeline.Window sig grid0 :=
  Pipeline.Window.ofSpec (Memref.whole main_arg0) S1x8x68x120.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x8x68x120.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x8x24x68x120.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x32x68x120 : Shape := ⟨4, ![8, 32, 68, 120]⟩
abbrev S24 : Shape := ⟨1, ![24]⟩
abbrev S24x1 : Shape := ⟨2, ![24, 1]⟩
abbrev S120 : Shape := ⟨1, ![120]⟩
abbrev S1x120 : Shape := ⟨2, ![1, 120]⟩
abbrev S24x120 : Shape := ⟨2, ![24, 120]⟩
abbrev S_ : Shape := ⟨0, ![]⟩
abbrev S24x120x1 : Shape := ⟨3, ![24, 120, 1]⟩
abbrev S8x32x68x24x120 : Shape := ⟨5, ![8, 32, 68, 24, 120]⟩
abbrev S8x32x68x1x120 : Shape := ⟨5, ![8, 32, 68, 1, 120]⟩
abbrev S1x1x1x24x120 : Shape := ⟨5, ![1, 1, 1, 24, 120]⟩
abbrev S8x32x24x68x120 : Shape := ⟨5, ![8, 32, 24, 68, 120]⟩

abbrev nBuf : Space → Nat
  | .hbm => 37
  | .vmem => 0
  | .smem => 0
  | _ => 0

abbrev bufTy : (tb : Table) → Fin (tcTables nBuf tb) → BufTy
  | .hbm, ⟨0, _⟩ => ⟨S8x32x68x120, .f32⟩
  | .hbm, ⟨1, _⟩ => ⟨S8x32x68x120, .f32⟩
  | .hbm, ⟨2, _⟩ => ⟨S24, .i32⟩
  | .hbm, ⟨3, _⟩ => ⟨S24x1, .i32⟩
  | .hbm, ⟨4, _⟩ => ⟨S120, .i32⟩
  | .hbm, ⟨5, _⟩ => ⟨S1x120, .i32⟩
  | .hbm, ⟨6, _⟩ => ⟨S24x120, .i32⟩
  | .hbm, ⟨7, _⟩ => ⟨S24x120, .i32⟩
  | .hbm, ⟨8, _⟩ => ⟨S24x120, .i32⟩
  | .hbm, ⟨9, _⟩ => ⟨S_, .i32⟩
  | .hbm, ⟨10, _⟩ => ⟨S24x120, .i32⟩
  | .hbm, ⟨11, _⟩ => ⟨S24x120, .i1⟩
  | .hbm, ⟨12, _⟩ => ⟨S24x120, .f32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S24x120, .i32⟩
  | .hbm, ⟨17, _⟩ => ⟨S24x120, .i32⟩
  | .hbm, ⟨18, _⟩ => ⟨S_, .i32⟩
  | .hbm, ⟨19, _⟩ => ⟨S24x120, .i32⟩
  | .hbm, ⟨20, _⟩ => ⟨S24x120, .i32⟩
  | .hbm, ⟨21, _⟩ => ⟨S_, .i32⟩
  | .hbm, ⟨22, _⟩ => ⟨S24x120, .i32⟩
  | .hbm, ⟨23, _⟩ => ⟨S24x120, .i1⟩
  | .hbm, ⟨24, _⟩ => ⟨S_, .i32⟩
  | .hbm, ⟨25, _⟩ => ⟨S24x120, .i32⟩
  | .hbm, ⟨26, _⟩ => ⟨S24x120, .i32⟩
  | .hbm, ⟨27, _⟩ => ⟨S24x120, .i32⟩
  | .hbm, ⟨28, _⟩ => ⟨S24x120x1, .i32⟩
  | .hbm, ⟨29, _⟩ => ⟨S8x32x68x24x120, .f32⟩
  | .hbm, ⟨30, _⟩ => ⟨S8x32x68x1x120, .f32⟩
  | .hbm, ⟨31, _⟩ => ⟨S8x32x68x24x120, .f32⟩
  | .hbm, ⟨32, _⟩ => ⟨S8x32x68x24x120, .f32⟩
  | .hbm, ⟨33, _⟩ => ⟨S1x1x1x24x120, .f32⟩
  | .hbm, ⟨34, _⟩ => ⟨S8x32x68x24x120, .f32⟩
  | .hbm, ⟨35, _⟩ => ⟨S8x32x68x24x120, .f32⟩
  | .hbm, ⟨36, _⟩ => ⟨S8x32x24x68x120, .f32⟩
  | _, _ => ⟨S8x32x68x120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c_0 : Ref sig .tc := ⟨.hbm, 13, rfl⟩
abbrev main_c_1 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v10 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_c_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩

abbrev nD : Nat := 1
abbrev τ : Topo := Topo.v7x

variable {F : FTy → Type} [FloatOps F]

class Facts₀ : Prop where
  bcast_S24_S24x1_0 : S24.BroadcastsInDim S24x1 (![0] : Fin 1 → Fin S24x1.rank)
  bcast_S120_S1x120_1 : S120.BroadcastsInDim S1x120 (![1] : Fin 1 → Fin S1x120.rank)
  bcast_S1x120_S24x120_0_1 : S1x120.BroadcastsInDim S24x120 (![0, 1] : Fin 2 → Fin S24x120.rank)
  bcast_S24x1_S24x120_0_1 : S24x1.BroadcastsInDim S24x120 (![0, 1] : Fin 2 → Fin S24x120.rank)
  bcast_S_S24x120 : S_.BroadcastsInDim S24x120 (![] : Fin 0 → Fin S24x120.rank)
  bcast_S24x120_S24x120x1_0_1 : S24x120.BroadcastsInDim S24x120x1 (![0, 1] : Fin 2 → Fin S24x120x1.rank)
  bcast_S8x32x68x120_S8x32x68x1x120_0_1_2_4 : S8x32x68x120.BroadcastsInDim S8x32x68x1x120 (![0, 1, 2, 4] : Fin 4 → Fin S8x32x68x1x120.rank)
  bcast_S8x32x68x1x120_S8x32x68x24x120_0_1_2_3_4 : S8x32x68x1x120.BroadcastsInDim S8x32x68x24x120 (![0, 1, 2, 3, 4] : Fin 5 → Fin S8x32x68x24x120.rank)
  bcast_S24x120_S1x1x1x24x120_3_4 : S24x120.BroadcastsInDim S1x1x1x24x120 (![3, 4] : Fin 2 → Fin S1x1x1x24x120.rank)
  bcast_S1x1x1x24x120_S8x32x68x24x120_0_1_2_3_4 : S1x1x1x24x120.BroadcastsInDim S8x32x68x24x120 (![0, 1, 2, 3, 4] : Fin 5 → Fin S8x32x68x24x120.rank)
  transposes_S8x32x68x24x120_S8x32x24x68x120_0_1_3_2_4 : S8x32x68x24x120.Transposes [0, 1, 3, 2, 4] S8x32x24x68x120
  gather_S8x32x68x120_S24x120x1_S8x32x68x24x120_012_3_n_n_3_2_832681_wf : GatherDims.WF S8x32x68x120 S24x120x1 S8x32x68x24x120 [0, 1, 2] [3] [] [3] [] 2 ![8, 32, 68, 1]

variable [Facts₀]

def gather_S8x32x68x120_S24x120x1_S8x32x68x24x120_012_3_n_n_3_2_832681 : GatherDims S8x32x68x120 S24x120x1 S8x32x68x24x120 where
  offsetDims := [0, 1, 2]
  collapsedSliceDims := [3]
  operandBatchingDims := []
  startIndicesBatchingDims := []
  startIndexMap := [3]
  indexVectorDim := 2
  sliceSizes := ![8, 32, 68, 1]
  wf := gather_S8x32x68x120_S24x120x1_S8x32x68x24x120_012_3_n_n_3_2_832681_wf

class Facts : Prop extends Facts₀ where

variable [Facts]
-- ==== Proof.ShiftOps.lean ====
/-
  The two vector values every disparity of the kernel is made of, read at one entry of an
  [8, 68, 120] tile (channel, row, column).

  The indicator: the column number w compared with a disparity d as signed 32-bit words (both far
  below 2³¹, so the comparison is the comparison of the numbers), the bit widened to a word and read
  as a float: 1 when d ≤ w and 0 when w < d.

  The shifted tile: a block of d columns of a constant z laid in front of the first 120 - d columns
  of a tile x.  At column w it is x at column w - d once w has passed the d columns of padding, and
  z inside the padding.
-/
import Idealize.ShloMosaic.PureOps.Ideal
import Idealize.ShloMosaic.Lib.ValueIdx
import Idealize.ShloMosaic.Lib.Pipeline.Value
import Idealize.ShloMosaic.Lib.StableHlo.Predicate

noncomputable section

namespace Cert.CostVolume

open Idealize.ShloMosaic Idealize.ShloMosaic.ValueIdx Idealize.ShloMosaic.StableHlo.Predicate

/-- One point's tile of a feature map: [channels of the block, H, W]. -/
abbrev STile : Shape := ⟨3, ![8, 68, 120]⟩

/-- Signed "w ≥ d" on two small numbers' words, widened and converted, is the indicator of d ≤ w. -/
theorem indicator_word (w d : Nat) (hw : w < 2 ^ 31) (hd : d < 2 ^ 31) :
    FloatOps.sitofp (F := Ideal) .f32 ((IntOp.cmpi .sge (BitVec.ofNat 32 w) (BitVec.ofNat 32 d)).setWidth 32)
      = if d ≤ w then (1 : EReal) else 0 := by
  have hwn : (BitVec.ofNat 32 w).toNat = w := by rw [BitVec.toNat_ofNat]; omega
  have hdn : (BitVec.ofNat 32 d).toNat = d := by rw [BitVec.toNat_ofNat]; omega
  have key := sge_iff_toNat (a := BitVec.ofNat 32 w) (b := BitVec.ofNat 32 d) (by omega) (by omega)
  rw [hwn, hdn] at key
  by_cases h : d ≤ w
  · rw [key.mpr h, if_pos h]
    show ((((1#1 : BitVec 1).setWidth 32).toInt : ℝ) : EReal) = 1
    rw [show ((1#1 : BitVec 1).setWidth 32).toInt = 1 by decide]
    simp
  · rw [eq_zero_of_ne_one (fun e => h (key.mp e)), if_neg h]
    show ((((0#1 : BitVec 1).setWidth 32).toInt : ℝ) : EReal) = 0
    rw [show ((0#1 : BitVec 1).setWidth 32).toInt = 0 by decide]
    simp

/-- The indicator tile at an entry: a column-number tile compared with the splat disparity. -/
theorem indicator_apply (cols : IVec STile 32) (dw : BitVec 32) (d : Nat) (hdw : dw = BitVec.ofNat 32 d) (hd : d < 2 ^ 31)
    (lt : 1 < 32) (c : Fin 8) (h : Fin 68) (w : Fin 120) (hcols : cols (ix3 c h w) = BitVec.ofNat 32 w.val) :
    (sitofp .f32 (extui 32 (cmpi .sge cols (broadcast STile dw)) lt) : FVec Ideal STile .f32) (ix3 c h w)
      = if d ≤ w.val then (1 : EReal) else 0 := by
  show FloatOps.sitofp (F := Ideal) .f32 ((IntOp.cmpi .sge (cols (ix3 c h w)) dw).setWidth 32) = _
  rw [hcols, hdw]
  exact indicator_word w.val d (by have := w.isLt; omega) hd

/-- The same indicator when the compare bit is handed over as a tile of its own. -/
theorem indicator_bit_apply (bits : IVec STile 1) (d : Nat) (hd : d < 2 ^ 31)
    (lt : 1 < 32) (c : Fin 8) (h : Fin 68) (w : Fin 120)
    (hbits : bits (ix3 c h w) = IntOp.cmpi .sge (BitVec.ofNat 32 w.val) (BitVec.ofNat 32 d)) :
    (sitofp .f32 (extui 32 bits lt) : FVec Ideal STile .f32) (ix3 c h w)
      = if d ≤ w.val then (1 : EReal) else 0 := by
  show FloatOps.sitofp (F := Ideal) .f32 ((bits (ix3 c h w)).setWidth 32) = _
  rw [hbits]
  exact indicator_word w.val d (by have := w.isLt; omega) hd

/-- The shifted tile at an entry: d columns of z in front of the first n columns of x (d + n = 120). -/
theorem shifted_apply {d n : Nat} (z : EReal) (x : STile.Idx → EReal)
    (hs : STile.Slices ![0, 0, 0] ⟨3, ![8, 68, n]⟩)
    (hc : Shape.Concatenates [(⟨3, ![8, 68, d]⟩ : Shape), ⟨3, ![8, 68, n]⟩] STile 2)
    (c : Fin 8) (h : Fin 68) (w : Fin 120) :
    concatenate STile 2 [⟨⟨3, ![8, 68, d]⟩, broadcast ⟨3, ![8, 68, d]⟩ z⟩,
        ⟨⟨3, ![8, 68, n]⟩, extractStridedSlice ⟨3, ![8, 68, n]⟩ ![0, 0, 0] x hs⟩] hc (ix3 c h w)
      = if d ≤ w.val then x (ix3 c h ⟨w.val - d, by have := w.isLt; omega⟩) else z := by
  have hsum : d + n = 120 := by
    have e := hc.2.2
    simpa using e
  by_cases hw : d ≤ w.val
  · rw [if_pos hw]
    have hlt : w.val - d < n := by have := w.isLt; omega
    refine (concatenate_pair_apply_right (t := STile) (s₁ := ⟨3, ![8, 68, d]⟩) (s₂ := ⟨3, ![8, 68, n]⟩) 2 _ _ hc
      (ix3 c h w) rfl rfl (ix3 c h ⟨w.val - d, hlt⟩) ?_ ?_).trans ?_
    · intro b hb
      match b, hb with
      | ⟨0, _⟩, _ => rfl
      | ⟨1, _⟩, _ => rfl
      | ⟨2, _⟩, hb => exact absurd rfl hb
    · show w.val - d + d = w.val
      omega
    · refine extractStridedSlice_apply _ x hs _ _ ?_
      intro a
      match a with
      | ⟨0, _⟩ => show c.val = 0 + c.val; omega
      | ⟨1, _⟩ => show h.val = 0 + h.val; omega
      | ⟨2, _⟩ => show w.val - d = 0 + (w.val - d); omega
  · rw [if_neg hw]
    have hlt : w.val < d := by omega
    exact concatenate_pair_apply_left (t := STile) (s₁ := ⟨3, ![8, 68, d]⟩) (s₂ := ⟨3, ![8, 68, n]⟩) 2 _ _ hc
      (ix3 c h w) rfl (ix3 c h ⟨w.val, hlt⟩) (fun b => match b with
        | ⟨0, _⟩ => rfl
        | ⟨1, _⟩ => rfl
        | ⟨2, _⟩ => rfl)

end Cert.CostVolume

end
-- ==== Proof.PieceOps.lean ====
/-
  One store of the kernel body, read at an entry.

  At one grid point the body holds the two staged blocks X0, X1 : [1, 8, 68, 120] (a batch entry's
  eight channels of the left and of the right feature map).  For a disparity d it forms the tile
  (left − right shifted d columns, zero-padded) · (indicator of d ≤ column) and stores it, viewed
  as [1, 8, 1, 68, 120], into plane d of the output block.  Read at an entry (0, c, 0, h, w) of that
  view this is  X0(0,c,h,w) − X1(0,c,h,w−d)  when d ≤ w, and  (X0(0,c,h,w) − 0) · 0 = 0  when w < d:
  the cost volume's entry, for the block.
-/
import proofs.«428127_j52802327937445_3_alg».proof.Proof.ShiftOps

noncomputable section

namespace Cert.CostVolume

open Idealize.ShloMosaic Idealize.ShloMosaic.ValueIdx

/-- A staged input block: [1, channels of the block, H, W]. -/
abbrev SBlkIn : Shape := ⟨4, ![1, 8, 68, 120]⟩
/-- One disparity's plane of the output block as the body stores it: [1, channels, 1, H, W]. -/
abbrev SPlane : Shape := ⟨5, ![1, 8, 1, 68, 120]⟩

/-- The block's cost entry for disparity d at channel c, row h, column w. -/
def blkCost (X0 X1 : SBlkIn.Idx → EReal) (d : Nat) (c : Fin 8) (h : Fin 68) (w : Fin 120) : EReal :=
  if d ≤ w.val then
    X0 (ix4 (0 : Fin 1) c h w) - X1 (ix4 (0 : Fin 1) c h ⟨w.val - d, by have := w.isLt; omega⟩)
  else 0

/-- A staged block viewed as a tile (the leading unit axis dropped), at an entry. -/
theorem tile_apply (X : SBlkIn.Idx → EReal) (hX : SBlkIn.ShapeCasts STile) (c : Fin 8) (h : Fin 68) (w : Fin 120) :
    shapeCast STile X hX (ix3 c h w) = X (ix4 (0 : Fin 1) c h w) :=
  shapeCast_apply X hX (ix3 c h w) (ix4 (0 : Fin 1) c h w) (by
    rw [Shape.rowMajor_val_three, Shape.rowMajor_val_four]
    show ((0 * 8 + c.val) * 68 + h.val) * 120 + w.val = (c.val * 68 + h.val) * 120 + w.val
    omega)

/-- A tile viewed as a stored plane (two unit axes added), at an entry. -/
theorem plane_apply (T : STile.Idx → EReal) (hT : STile.ShapeCasts SPlane)
    (a : Fin 1) (c : Fin 8) (e : Fin 1) (h : Fin 68) (w : Fin 120) :
    shapeCast SPlane T hT (ix5 a c e h w) = T (ix3 c h w) :=
  shapeCast_apply T hT (ix5 a c e h w) (ix3 c h w) (by
    have h0 : a.val < 1 := a.isLt
    have h2 : e.val < 1 := e.isLt
    rw [Shape.rowMajor_val_three, Shape.rowMajor_val_five]
    show (c.val * 68 + h.val) * 120 + w.val
      = (((a.val * 8 + c.val) * 1 + e.val) * 68 + h.val) * 120 + w.val
    have e0 : a.val = 0 := by omega
    have e2 : e.val = 0 := by omega
    rw [e0, e2]
    omega)

/-- THE STORED PLANE of a disparity d ≥ 1 at an entry: the block's cost entry. -/
theorem plane_shifted {d n : Nat} (X0 X1 : SBlkIn.Idx → EReal) (h0 h1 : SBlkIn.ShapeCasts STile)
    (hs : STile.Slices ![0, 0, 0] ⟨3, ![8, 68, n]⟩)
    (hc : Shape.Concatenates [(⟨3, ![8, 68, d]⟩ : Shape), ⟨3, ![8, 68, n]⟩] STile 2)
    (hi : STile.Iotas .tc 32 [2]) (dw : BitVec 32) (hdw : dw = BitVec.ofNat 32 d) (hd : d < 2 ^ 31) (lt : 1 < 32)
    (hT : STile.ShapeCasts SPlane) (a : Fin 1) (c : Fin 8) (e : Fin 1) (h : Fin 68) (w : Fin 120) :
    shapeCast SPlane
      (mulf (subf (shapeCast STile X0 h0)
          (concatenate STile 2 [⟨⟨3, ![8, 68, d]⟩, broadcast ⟨3, ![8, 68, d]⟩ (Scalar.sitofp (F := Ideal) .f32 0#32)⟩,
            ⟨⟨3, ![8, 68, n]⟩, extractStridedSlice ⟨3, ![8, 68, n]⟩ ![0, 0, 0] (shapeCast STile X1 h1) hs⟩] hc))
        (sitofp .f32 (extui 32 (cmpi .sge (iota .tc STile 32 [2] hi) (broadcast STile dw)) lt) : FVec Ideal STile .f32))
      hT (ix5 a c e h w) = blkCost X0 X1 d c h w := by
  rw [plane_apply, mulf_apply, subf_apply, tile_apply, shifted_apply,
    indicator_apply (iota .tc STile 32 [2] hi) dw d hdw hd lt c h w
      (iota_single_apply .tc STile 32 2 hi (ix3 c h w))]
  unfold blkCost
  by_cases hw : d ≤ w.val
  · rw [if_pos hw, if_pos hw, if_pos hw, tile_apply, mul_one]
  · rw [if_neg hw, if_neg hw, if_neg hw, mul_zero]

/-- THE STORED PLANE of disparity 0 at an entry: nothing is shifted and every column counts. -/
theorem plane_unshifted (X0 X1 : SBlkIn.Idx → EReal) (h0 h1 : SBlkIn.ShapeCasts STile)
    (hi : STile.Iotas .tc 32 [2]) (lt : 1 < 32) (hT : STile.ShapeCasts SPlane)
    (a : Fin 1) (c : Fin 8) (e : Fin 1) (h : Fin 68) (w : Fin 120) :
    shapeCast SPlane
      (mulf (subf (shapeCast STile X0 h0) (shapeCast STile X1 h1))
        (sitofp .f32 (extui 32 (cmpi .sge (iota .tc STile 32 [2] hi) (broadcast STile 0#32)) lt) : FVec Ideal STile .f32))
      hT (ix5 a c e h w) = blkCost X0 X1 0 c h w := by
  rw [plane_apply, mulf_apply, subf_apply, tile_apply, tile_apply,
    indicator_apply (iota .tc STile 32 [2] hi) 0#32 0 rfl (by decide) lt c h w
      (iota_single_apply .tc STile 32 2 hi (ix3 c h w))]
  unfold blkCost
  rw [if_pos (Nat.zero_le _), if_pos (Nat.zero_le _), mul_one]
  rfl

/-- The output block one grid point fills: [1, channels of the block, D, H, W]. -/
abbrev SBlkOut : Shape := ⟨5, ![1, 8, 24, 68, 120]⟩

/-- The whole output block as one function of the two staged blocks: plane d holds disparity d. -/
def blkVol (X0 X1 : SBlkIn.Idx → EReal) : SBlkOut.Idx → EReal := fun y =>
  blkCost X0 X1 (y 2).val ⟨(y 1).val, (y 1).isLt⟩ ⟨(y 3).val, (y 3).isLt⟩ ⟨(y 4).val, (y 4).isLt⟩

/-- A payload that is disparity d's plane, stored through the rectangle of plane d, agrees with the
    block's function at every entry of the rectangle: entry (a, c, e, h, w) of the stored plane lies at
    (a, c, d + e, h, w) of the block, and a, e range over one value. -/
theorem plane_in_block (X0 X1 : SBlkIn.Idx → EReal) (d : Nat)
    (inb : ∀ a, (![0, 0, d, 0, 0] : Fin 5 → Nat) a + SPlane.size a ≤ SBlkOut.size a)
    (P : SPlane.Idx → EReal)
    (hP : ∀ (a : Fin 1) (c : Fin 8) (e : Fin 1) (h : Fin 68) (w : Fin 120), P (ix5 a c e h w) = blkCost X0 X1 d c h w)
    (x : SPlane.Idx) :
    P x = blkVol X0 X1 ((Rect.unit (s := SBlkOut) ![0, 0, d, 0, 0] SPlane.size inb).emb x) := by
  obtain ⟨a, c, e, h, w, rfl⟩ : ∃ (a : Fin 1) (c : Fin 8) (e : Fin 1) (h : Fin 68) (w : Fin 120), x = ix5 a c e h w :=
    ⟨x 0, x 1, x 2, x 3, x 4, eq_ix5 x⟩
  rw [hP]
  have he : e.val = 0 := by have := e.isLt; omega
  show _ = blkCost X0 X1 (d + 1 * e.val) ⟨0 + 1 * c.val, _⟩ ⟨0 + 1 * h.val, _⟩ ⟨0 + 1 * w.val, _⟩
  congr 1
  · omega
  · exact Fin.ext (by show c.val = 0 + 1 * c.val; omega)
  · exact Fin.ext (by show h.val = 0 + 1 * h.val; omega)
  · exact Fin.ext (by show w.val = 0 + 1 * w.val; omega)

end Cert.CostVolume

end
-- ==== Proof.KernelPlanes.lean ====
/-
  What the kernel body leaves in the output block at one grid point.

  The body stores twenty-four planes, one per disparity d = 0 … 23, each the tile
  (left − right shifted d columns) · (indicator of d ≤ column) of the two staged blocks.  Each is
  read at an entry in PieceOps (`plane_shifted`, `plane_unshifted`); the body's own payload terms
  cut these tiles at different places (a shifted tile, a compare bit or a whole indicator may have been
  computed a few statements earlier and carried along), but each unfolds to the same expression.
  The planes tile the block, so the block's contents are the one function `blkVol` of the staged blocks.
-/
import proofs.«428127_j52802327937445_3_alg».proof.Proof.Gen.KernelIdeal.Value
import proofs.«428127_j52802327937445_3_alg».proof.Proof.PieceOps

set_option maxRecDepth 16384

noncomputable section

namespace Cert.CostVolume.Body

open Cert.KernelIdeal Cert.KernelIdeal.Gen Idealize.ShloMosaic Idealize.ShloMosaic.ValueIdx Cert.CostVolume

variable (X0 X1 : Vec Ideal S1x8x68x120 .f32) (a : Fin 1) (c : Fin 8) (e : Fin 1) (h : Fin 68) (w : Fin 120)

/-- The column numbers of a tile. -/
abbrev cols : IVec S8x68x120 32 := iota .tc S8x68x120 32 [2] iota_S8x68x120_d2_w32

/-! ## The twenty-four stored planes, each at an entry -/

theorem plane0 : k0_pay5 X0 X1 (ix5 a c e h w) = blkCost X0 X1 0 c h w :=
  plane_unshifted X0 X1 shapeCasts_S1x8x68x120_S8x68x120 shapeCasts_S1x8x68x120_S8x68x120 iota_S8x68x120_d2_w32
    natLt_1_32 shapeCasts_S8x68x120_S1x8x1x68x120 a c e h w

theorem plane1 : k0_pay6 X0 X1 (ix5 a c e h w) = blkCost X0 X1 1 c h w :=
  plane_shifted (d := 1) (n := 119) X0 X1 shapeCasts_S1x8x68x120_S8x68x120 shapeCasts_S1x8x68x120_S8x68x120
    slices_S8x68x120_o0_0_0_S8x68x119 concatenates_S8x68x1_S8x68x119_S8x68x120_d2 iota_S8x68x120_d2_w32 1#32 rfl (by decide)
    natLt_1_32 shapeCasts_S8x68x120_S1x8x1x68x120 a c e h w

theorem plane2 : k0_pay9 (k0_pay3 X0) (k0_pay7 X1) k0_pay8 (ix5 a c e h w) = blkCost X0 X1 2 c h w :=
  plane_shifted (d := 2) (n := 118) X0 X1 shapeCasts_S1x8x68x120_S8x68x120 shapeCasts_S1x8x68x120_S8x68x120
    slices_S8x68x120_o0_0_0_S8x68x118 concatenates_S8x68x2_S8x68x118_S8x68x120_d2 iota_S8x68x120_d2_w32 2#32 rfl (by decide)
    natLt_1_32 shapeCasts_S8x68x120_S1x8x1x68x120 a c e h w

theorem plane3 : k0_pay10 (k0_pay3 X0) (k0_pay4 X1) cols (ix5 a c e h w) = blkCost X0 X1 3 c h w :=
  plane_shifted (d := 3) (n := 117) X0 X1 shapeCasts_S1x8x68x120_S8x68x120 shapeCasts_S1x8x68x120_S8x68x120
    slices_S8x68x120_o0_0_0_S8x68x117 concatenates_S8x68x3_S8x68x117_S8x68x120_d2 iota_S8x68x120_d2_w32 3#32 rfl (by decide)
    natLt_1_32 shapeCasts_S8x68x120_S1x8x1x68x120 a c e h w

theorem plane4 : k0_pay11 (k0_pay3 X0) (k0_pay4 X1) cols (ix5 a c e h w) = blkCost X0 X1 4 c h w :=
  plane_shifted (d := 4) (n := 116) X0 X1 shapeCasts_S1x8x68x120_S8x68x120 shapeCasts_S1x8x68x120_S8x68x120
    slices_S8x68x120_o0_0_0_S8x68x116 concatenates_S8x68x4_S8x68x116_S8x68x120_d2 iota_S8x68x120_d2_w32 4#32 rfl (by decide)
    natLt_1_32 shapeCasts_S8x68x120_S1x8x1x68x120 a c e h w

theorem plane5 : k0_pay13 (k0_pay3 X0) cols (k0_pay12 (k0_pay4 X1)) (ix5 a c e h w) = blkCost X0 X1 5 c h w :=
  plane_shifted (d := 5) (n := 115) X0 X1 shapeCasts_S1x8x68x120_S8x68x120 shapeCasts_S1x8x68x120_S8x68x120
    slices_S8x68x120_o0_0_0_S8x68x115 concatenates_S8x68x5_S8x68x115_S8x68x120_d2 iota_S8x68x120_d2_w32 5#32 rfl (by decide)
    natLt_1_32 shapeCasts_S8x68x120_S1x8x1x68x120 a c e h w

theorem plane6 : k0_pay14 (k0_pay3 X0) (k0_pay4 X1) cols (ix5 a c e h w) = blkCost X0 X1 6 c h w :=
  plane_shifted (d := 6) (n := 114) X0 X1 shapeCasts_S1x8x68x120_S8x68x120 shapeCasts_S1x8x68x120_S8x68x120
    slices_S8x68x120_o0_0_0_S8x68x114 concatenates_S8x68x6_S8x68x114_S8x68x120_d2 iota_S8x68x120_d2_w32 6#32 rfl (by decide)
    natLt_1_32 shapeCasts_S8x68x120_S1x8x1x68x120 a c e h w

theorem plane7 : k0_pay15 (k0_pay3 X0) (k0_pay4 X1) cols (ix5 a c e h w) = blkCost X0 X1 7 c h w :=
  plane_shifted (d := 7) (n := 113) X0 X1 shapeCasts_S1x8x68x120_S8x68x120 shapeCasts_S1x8x68x120_S8x68x120
    slices_S8x68x120_o0_0_0_S8x68x113 concatenates_S8x68x7_S8x68x113_S8x68x120_d2 iota_S8x68x120_d2_w32 7#32 rfl (by decide)
    natLt_1_32 shapeCasts_S8x68x120_S1x8x1x68x120 a c e h w

theorem plane8 : k0_pay17 (k0_pay3 X0) cols (k0_pay16 (k0_pay4 X1)) 0#32 (ix5 a c e h w) = blkCost X0 X1 8 c h w :=
  plane_shifted (d := 8) (n := 112) X0 X1 shapeCasts_S1x8x68x120_S8x68x120 shapeCasts_S1x8x68x120_S8x68x120
    slices_S8x68x120_o0_0_0_S8x68x112 concatenates_S8x68x8_S8x68x112_S8x68x120_d2 iota_S8x68x120_d2_w32 8#32 rfl (by decide)
    natLt_1_32 shapeCasts_S8x68x120_S1x8x1x68x120 a c e h w

theorem plane9 : k0_pay18 (k0_pay3 X0) (k0_pay4 X1) cols (ix5 a c e h w) = blkCost X0 X1 9 c h w :=
  plane_shifted (d := 9) (n := 111) X0 X1 shapeCasts_S1x8x68x120_S8x68x120 shapeCasts_S1x8x68x120_S8x68x120
    slices_S8x68x120_o0_0_0_S8x68x111 concatenates_S8x68x9_S8x68x111_S8x68x120_d2 iota_S8x68x120_d2_w32 9#32 rfl (by decide)
    natLt_1_32 shapeCasts_S8x68x120_S1x8x1x68x120 a c e h w

theorem plane10 : k0_pay19 (k0_pay3 X0) (k0_pay4 X1) cols (ix5 a c e h w) = blkCost X0 X1 10 c h w :=
  plane_shifted (d := 10) (n := 110) X0 X1 shapeCasts_S1x8x68x120_S8x68x120 shapeCasts_S1x8x68x120_S8x68x120
    slices_S8x68x120_o0_0_0_S8x68x110 concatenates_S8x68x10_S8x68x110_S8x68x120_d2 iota_S8x68x120_d2_w32 10#32 rfl (by decide)
    natLt_1_32 shapeCasts_S8x68x120_S1x8x1x68x120 a c e h w

theorem plane11 : k0_pay20 (k0_pay3 X0) (k0_pay4 X1) cols (ix5 a c e h w) = blkCost X0 X1 11 c h w :=
  plane_shifted (d := 11) (n := 109) X0 X1 shapeCasts_S1x8x68x120_S8x68x120 shapeCasts_S1x8x68x120_S8x68x120
    slices_S8x68x120_o0_0_0_S8x68x109 concatenates_S8x68x11_S8x68x109_S8x68x120_d2 iota_S8x68x120_d2_w32 11#32 rfl (by decide)
    natLt_1_32 shapeCasts_S8x68x120_S1x8x1x68x120 a c e h w

theorem plane12 : k0_pay21 (k0_pay3 X0) (k0_pay4 X1) cols (ix5 a c e h w) = blkCost X0 X1 12 c h w :=
  plane_shifted (d := 12) (n := 108) X0 X1 shapeCasts_S1x8x68x120_S8x68x120 shapeCasts_S1x8x68x120_S8x68x120
    slices_S8x68x120_o0_0_0_S8x68x108 concatenates_S8x68x12_S8x68x108_S8x68x120_d2 iota_S8x68x120_d2_w32 12#32 rfl (by decide)
    natLt_1_32 shapeCasts_S8x68x120_S1x8x1x68x120 a c e h w

theorem plane13 : k0_pay23 (k0_pay22 (k0_pay3 X0) (k0_pay4 X1) cols) (ix5 a c e h w) = blkCost X0 X1 13 c h w :=
  plane_shifted (d := 13) (n := 107) X0 X1 shapeCasts_S1x8x68x120_S8x68x120 shapeCasts_S1x8x68x120_S8x68x120
    slices_S8x68x120_o0_0_0_S8x68x107 concatenates_S8x68x13_S8x68x107_S8x68x120_d2 iota_S8x68x120_d2_w32 13#32 rfl (by decide)
    natLt_1_32 shapeCasts_S8x68x120_S1x8x1x68x120 a c e h w

theorem plane14 : k0_pay24 (k0_pay3 X0) (k0_pay4 X1) cols (ix5 a c e h w) = blkCost X0 X1 14 c h w :=
  plane_shifted (d := 14) (n := 106) X0 X1 shapeCasts_S1x8x68x120_S8x68x120 shapeCasts_S1x8x68x120_S8x68x120
    slices_S8x68x120_o0_0_0_S8x68x106 concatenates_S8x68x14_S8x68x106_S8x68x120_d2 iota_S8x68x120_d2_w32 14#32 rfl (by decide)
    natLt_1_32 shapeCasts_S8x68x120_S1x8x1x68x120 a c e h w

theorem plane15 : k0_pay25 (k0_pay3 X0) (k0_pay4 X1) cols (ix5 a c e h w) = blkCost X0 X1 15 c h w :=
  plane_shifted (d := 15) (n := 105) X0 X1 shapeCasts_S1x8x68x120_S8x68x120 shapeCasts_S1x8x68x120_S8x68x120
    slices_S8x68x120_o0_0_0_S8x68x105 concatenates_S8x68x15_S8x68x105_S8x68x120_d2 iota_S8x68x120_d2_w32 15#32 rfl (by decide)
    natLt_1_32 shapeCasts_S8x68x120_S1x8x1x68x120 a c e h w

theorem plane16 : k0_pay27 (k0_pay26 (k0_pay3 X0) (k0_pay4 X1) cols) (ix5 a c e h w) = blkCost X0 X1 16 c h w :=
  plane_shifted (d := 16) (n := 104) X0 X1 shapeCasts_S1x8x68x120_S8x68x120 shapeCasts_S1x8x68x120_S8x68x120
    slices_S8x68x120_o0_0_0_S8x68x104 concatenates_S8x68x16_S8x68x104_S8x68x120_d2 iota_S8x68x120_d2_w32 16#32 rfl (by decide)
    natLt_1_32 shapeCasts_S8x68x120_S1x8x1x68x120 a c e h w

theorem plane17 : k0_pay28 (k0_pay3 X0) (k0_pay4 X1) cols (ix5 a c e h w) = blkCost X0 X1 17 c h w :=
  plane_shifted (d := 17) (n := 103) X0 X1 shapeCasts_S1x8x68x120_S8x68x120 shapeCasts_S1x8x68x120_S8x68x120
    slices_S8x68x120_o0_0_0_S8x68x103 concatenates_S8x68x17_S8x68x103_S8x68x120_d2 iota_S8x68x120_d2_w32 17#32 rfl (by decide)
    natLt_1_32 shapeCasts_S8x68x120_S1x8x1x68x120 a c e h w

theorem plane18 : k0_pay29 (k0_pay3 X0) (k0_pay4 X1) cols (ix5 a c e h w) = blkCost X0 X1 18 c h w :=
  plane_shifted (d := 18) (n := 102) X0 X1 shapeCasts_S1x8x68x120_S8x68x120 shapeCasts_S1x8x68x120_S8x68x120
    slices_S8x68x120_o0_0_0_S8x68x102 concatenates_S8x68x18_S8x68x102_S8x68x120_d2 iota_S8x68x120_d2_w32 18#32 rfl (by decide)
    natLt_1_32 shapeCasts_S8x68x120_S1x8x1x68x120 a c e h w

theorem plane19 : k0_pay32 (k0_pay30 (F := Ideal) cols) (k0_pay31 (k0_pay3 X0) (k0_pay4 X1)) (ix5 a c e h w)
    = blkCost X0 X1 19 c h w :=
  plane_shifted (d := 19) (n := 101) X0 X1 shapeCasts_S1x8x68x120_S8x68x120 shapeCasts_S1x8x68x120_S8x68x120
    slices_S8x68x120_o0_0_0_S8x68x101 concatenates_S8x68x19_S8x68x101_S8x68x120_d2 iota_S8x68x120_d2_w32 19#32 rfl (by decide)
    natLt_1_32 shapeCasts_S8x68x120_S1x8x1x68x120 a c e h w

theorem plane20 : k0_pay33 (k0_pay3 X0) (k0_pay4 X1) cols (ix5 a c e h w) = blkCost X0 X1 20 c h w :=
  plane_shifted (d := 20) (n := 100) X0 X1 shapeCasts_S1x8x68x120_S8x68x120 shapeCasts_S1x8x68x120_S8x68x120
    slices_S8x68x120_o0_0_0_S8x68x100 concatenates_S8x68x20_S8x68x100_S8x68x120_d2 iota_S8x68x120_d2_w32 20#32 rfl (by decide)
    natLt_1_32 shapeCasts_S8x68x120_S1x8x1x68x120 a c e h w

theorem plane21 : k0_pay34 (k0_pay3 X0) (k0_pay4 X1) cols (ix5 a c e h w) = blkCost X0 X1 21 c h w :=
  plane_shifted (d := 21) (n := 99) X0 X1 shapeCasts_S1x8x68x120_S8x68x120 shapeCasts_S1x8x68x120_S8x68x120
    slices_S8x68x120_o0_0_0_S8x68x99 concatenates_S8x68x21_S8x68x99_S8x68x120_d2 iota_S8x68x120_d2_w32 21#32 rfl (by decide)
    natLt_1_32 shapeCasts_S8x68x120_S1x8x1x68x120 a c e h w

theorem plane22 : k0_pay1 (k0_pay3 X0) (k0_pay35 (k0_pay4 X1)) (k0_pay36 cols) (ix5 a c e h w) = blkCost X0 X1 22 c h w :=
  plane_shifted (d := 22) (n := 98) X0 X1 shapeCasts_S1x8x68x120_S8x68x120 shapeCasts_S1x8x68x120_S8x68x120
    slices_S8x68x120_o0_0_0_S8x68x98 concatenates_S8x68x22_S8x68x98_S8x68x120_d2 iota_S8x68x120_d2_w32 22#32 rfl (by decide)
    natLt_1_32 shapeCasts_S8x68x120_S1x8x1x68x120 a c e h w

theorem plane23 : k0_pay2 (k0_pay3 X0) (k0_pay4 X1) cols (ix5 a c e h w) = blkCost X0 X1 23 c h w :=
  plane_shifted (d := 23) (n := 97) X0 X1 shapeCasts_S1x8x68x120_S8x68x120 shapeCasts_S1x8x68x120_S8x68x120
    slices_S8x68x120_o0_0_0_S8x68x97 concatenates_S8x68x23_S8x68x97_S8x68x120_d2 iota_S8x68x120_d2_w32 23#32 rfl (by decide)
    natLt_1_32 shapeCasts_S8x68x120_S1x8x1x68x120 a c e h w

end Cert.CostVolume.Body

end
-- ==== Proof.Spec.lean ====
/-
  The cost volume as one function of the two feature maps.

  For a batch entry b, a channel c, a disparity d < 24, a row h and a column w the volume holds
  the left feature at (b, c, h, w) minus the right feature d columns to the left, at (b, c, h, w - d),
  where that column exists (d ≤ w), and zero where it does not (w < d).  Both programs reach this
  value as a product "difference × indicator of d ≤ w"; on the extended reals a product with zero
  is zero whatever the other factor is, so the value on the columns w < d does not depend on what
  either program subtracts there.
-/
import Idealize.ShloMosaic.PureOps.Ideal
import Idealize.ShloMosaic.Lib.ValueIdx

noncomputable section

namespace Cert.CostVolume

open Idealize.ShloMosaic Idealize.ShloMosaic.ValueIdx

/-- The feature maps' shape [B, C, H, W]. -/
abbrev SFeat : Shape := ⟨4, ![8, 32, 68, 120]⟩
/-- The cost volume's shape [B, C, D, H, W]. -/
abbrev SVol : Shape := ⟨5, ![8, 32, 24, 68, 120]⟩

/-- The volume's entry at explicit coordinates: the shifted difference where the shifted column
    exists, zero elsewhere. -/
def costAt (L R : SFeat.Idx → EReal) (b : Fin 8) (c : Fin 32) (d : Fin 24) (h : Fin 68) (w : Fin 120) : EReal :=
  if hd : d.val ≤ w.val then L (ix4 b c h w) - R (ix4 b c h ⟨w.val - d.val, by omega⟩) else 0

/-- The whole volume, index by index. -/
def costVolume (L R : SFeat.Idx → EReal) : SVol.Idx → EReal :=
  fun j => costAt L R (j 0) (j 1) (j 2) (j 3) (j 4)

theorem costVolume_ix5 (L R : SFeat.Idx → EReal) (b : Fin 8) (c : Fin 32) (d : Fin 24) (h : Fin 68) (w : Fin 120) :
    costVolume L R (ix5 b c d h w) = costAt L R b c d h w := rfl

/-- Where the shifted column exists the entry is the difference. -/
theorem costAt_of_le (L R : SFeat.Idx → EReal) (b : Fin 8) (c : Fin 32) (d : Fin 24) (h : Fin 68) (w : Fin 120)
    (hd : d.val ≤ w.val) (k : Fin 120) (hk : k.val = w.val - d.val) :
    costAt L R b c d h w = L (ix4 b c h w) - R (ix4 b c h k) := by
  unfold costAt
  rw [dif_pos hd]
  congr 3
  exact Fin.ext hk.symm

/-- Where it does not the entry is zero. -/
theorem costAt_of_lt (L R : SFeat.Idx → EReal) (b : Fin 8) (c : Fin 32) (d : Fin 24) (h : Fin 68) (w : Fin 120)
    (hd : w.val < d.val) : costAt L R b c d h w = 0 := by
  unfold costAt
  rw [dif_neg (by omega)]

end Cert.CostVolume

end
-- ==== Proof.BlockOfVolume.lean ====
/-
  A grid point's output block is a block of the cost volume.

  Grid point (b, q) stages channels 8q … 8q+7 of batch entry b of both feature maps and fills the
  volume's block at batch b, channels 8q … 8q+7, all disparities, rows and columns.  So the block's
  cost entry at (c, d, h, w), computed from the staged blocks, is the volume's entry at
  (b, 8q + c, d, h, w), computed from the whole maps: the same two features are subtracted.
-/
import proofs.«428127_j52802327937445_3_alg».proof.Proof.Spec
import proofs.«428127_j52802327937445_3_alg».proof.Proof.PieceOps

noncomputable section

namespace Cert.CostVolume

open Idealize.ShloMosaic Idealize.ShloMosaic.ValueIdx

theorem blkCost_eq_costAt (A0 A1 : SFeat.Idx → EReal) (X0 X1 : SBlkIn.Idx → EReal) (b : Fin 8) (q : Nat) (hq : q < 4)
    (hX0 : ∀ (c : Fin 8) (h : Fin 68) (w : Fin 120),
      X0 (ix4 (0 : Fin 1) c h w) = A0 (ix4 b ⟨q * 8 + c.val, by have := c.isLt; omega⟩ h w))
    (hX1 : ∀ (c : Fin 8) (h : Fin 68) (w : Fin 120),
      X1 (ix4 (0 : Fin 1) c h w) = A1 (ix4 b ⟨q * 8 + c.val, by have := c.isLt; omega⟩ h w))
    (c : Fin 8) (d : Nat) (h : Fin 68) (w : Fin 120)
    (B : Fin 8) (C : Fin 32) (D : Fin 24) (H : Fin 68) (W : Fin 120)
    (hB : B.val = b.val) (hC : C.val = q * 8 + c.val) (hD : D.val = d) (hH : H.val = h.val) (hW : W.val = w.val) :
    blkCost X0 X1 d c h w = costAt A0 A1 B C D H W := by
  obtain rfl : B = b := Fin.ext hB
  obtain rfl : H = h := Fin.ext hH
  obtain rfl : W = w := Fin.ext hW
  subst hD
  have eC : (⟨q * 8 + c.val, by have := c.isLt; omega⟩ : Fin 32) = C := Fin.ext hC.symm
  unfold blkCost costAt
  by_cases hd : D.val ≤ W.val
  · rw [if_pos hd, dif_pos hd, hX0, hX1, eC]
  · rw [if_neg hd, dif_neg hd]

end Cert.CostVolume

end
-- ==== Proof.KernelValue.lean ====
/-
  The kernel's result array is the cost volume.

  Per grid point: the body leaves `blkVol` of the two staged blocks in the output block (the twenty-four
  planes tile it), the staged blocks are the blocks of the two feature maps at the point's batch entry and
  channel group, and so what the point writes back is the block of the cost volume at that batch entry
  and channel group.  The thirty-two points' blocks tile the volume (batch entry b, channels 8q … 8q+7
  for the point (b, q)), so the array ends holding the cost volume of the two argument arrays.
-/
import proofs.«428127_j52802327937445_3_alg».proof.Proof.KernelPlanes
import proofs.«428127_j52802327937445_3_alg».proof.Proof.BlockOfVolume

set_option maxRecDepth 16384

noncomputable section

namespace Cert.CostVolume.Body

open Cert.KernelIdeal Cert.KernelIdeal.Gen Idealize.ShloMosaic Idealize.ShloMosaic.TcCoe Idealize.SL.Sem
open Idealize.ShloMosaic.ValueIdx Cert.CostVolume
open Idealize.ShloMosaic.Pipeline (Dat)

/-! ## The block after the body -/

theorem zero_offsets : (![0, 0, 0, 0] : Fin 4 → Nat) = fun _ => 0 := funext fun a => by fin_cases a <;> rfl

/-- The output block after the body is `blkVol` of the two staged blocks: each stored plane agrees with it
    on its rectangle, and the planes cover the block. -/
theorem out_block (x0 x1 : Vec Ideal S1x8x68x120 .f32) : out0_2 x0 x1 = blkVol x0 x1 := by
  funext y
  unfold out0_2
  simp only [View.ld_unit_zero (S := S1x8x68x120) zero_offsets]
  refine View.canon_apply_of_pieces (Val := Elt Ideal) (S := S1x8x24x68x120) (e := .f32) (blkVol x0 x1) _ ?_ y
    (cover0_2 _ _ _ _ _ _ _ _ _ _ _ _ _ _ _ _ _ _ _ _ _ _ _ _ y)
  intro pc hpc x
  rcases List.mem_cons.mp hpc with rfl | hpc
  · exact plane_in_block x0 x1 23 inb_S1x8x24x68x120_S1x8x1x68x120_0_0_23_0_0 _ (plane23 x0 x1) x
  rcases List.mem_cons.mp hpc with rfl | hpc
  · exact plane_in_block x0 x1 22 inb_S1x8x24x68x120_S1x8x1x68x120_0_0_22_0_0 _ (plane22 x0 x1) x
  rcases List.mem_cons.mp hpc with rfl | hpc
  · exact plane_in_block x0 x1 21 inb_S1x8x24x68x120_S1x8x1x68x120_0_0_21_0_0 _ (plane21 x0 x1) x
  rcases List.mem_cons.mp hpc with rfl | hpc
  · exact plane_in_block x0 x1 20 inb_S1x8x24x68x120_S1x8x1x68x120_0_0_20_0_0 _ (plane20 x0 x1) x
  rcases List.mem_cons.mp hpc with rfl | hpc
  · exact plane_in_block x0 x1 19 inb_S1x8x24x68x120_S1x8x1x68x120_0_0_19_0_0 _ (plane19 x0 x1) x
  rcases List.mem_cons.mp hpc with rfl | hpc
  · exact plane_in_block x0 x1 18 inb_S1x8x24x68x120_S1x8x1x68x120_0_0_18_0_0 _ (plane18 x0 x1) x
  rcases List.mem_cons.mp hpc with rfl | hpc
  · exact plane_in_block x0 x1 17 inb_S1x8x24x68x120_S1x8x1x68x120_0_0_17_0_0 _ (plane17 x0 x1) x
  rcases List.mem_cons.mp hpc with rfl | hpc
  · exact plane_in_block x0 x1 16 inb_S1x8x24x68x120_S1x8x1x68x120_0_0_16_0_0 _ (plane16 x0 x1) x
  rcases List.mem_cons.mp hpc with rfl | hpc
  · exact plane_in_block x0 x1 15 inb_S1x8x24x68x120_S1x8x1x68x120_0_0_15_0_0 _ (plane15 x0 x1) x
  rcases List.mem_cons.mp hpc with rfl | hpc
  · exact plane_in_block x0 x1 14 inb_S1x8x24x68x120_S1x8x1x68x120_0_0_14_0_0 _ (plane14 x0 x1) x
  rcases List.mem_cons.mp hpc with rfl | hpc
  · exact plane_in_block x0 x1 13 inb_S1x8x24x68x120_S1x8x1x68x120_0_0_13_0_0 _ (plane13 x0 x1) x
  rcases List.mem_cons.mp hpc with rfl | hpc
  · exact plane_in_block x0 x1 12 inb_S1x8x24x68x120_S1x8x1x68x120_0_0_12_0_0 _ (plane12 x0 x1) x
  rcases List.mem_cons.mp hpc with rfl | hpc
  · exact plane_in_block x0 x1 11 inb_S1x8x24x68x120_S1x8x1x68x120_0_0_11_0_0 _ (plane11 x0 x1) x
  rcases List.mem_cons.mp hpc with rfl | hpc
  · exact plane_in_block x0 x1 10 inb_S1x8x24x68x120_S1x8x1x68x120_0_0_10_0_0 _ (plane10 x0 x1) x
  rcases List.mem_cons.mp hpc with rfl | hpc
  · exact plane_in_block x0 x1 9 inb_S1x8x24x68x120_S1x8x1x68x120_0_0_9_0_0 _ (plane9 x0 x1) x
  rcases List.mem_cons.mp hpc with rfl | hpc
  · exact plane_in_block x0 x1 8 inb_S1x8x24x68x120_S1x8x1x68x120_0_0_8_0_0 _ (plane8 x0 x1) x
  rcases List.mem_cons.mp hpc with rfl | hpc
  · exact plane_in_block x0 x1 7 inb_S1x8x24x68x120_S1x8x1x68x120_0_0_7_0_0 _ (plane7 x0 x1) x
  rcases List.mem_cons.mp hpc with rfl | hpc
  · exact plane_in_block x0 x1 6 inb_S1x8x24x68x120_S1x8x1x68x120_0_0_6_0_0 _ (plane6 x0 x1) x
  rcases List.mem_cons.mp hpc with rfl | hpc
  · exact plane_in_block x0 x1 5 inb_S1x8x24x68x120_S1x8x1x68x120_0_0_5_0_0 _ (plane5 x0 x1) x
  rcases List.mem_cons.mp hpc with rfl | hpc
  · exact plane_in_block x0 x1 4 inb_S1x8x24x68x120_S1x8x1x68x120_0_0_4_0_0 _ (plane4 x0 x1) x
  rcases List.mem_cons.mp hpc with rfl | hpc
  · exact plane_in_block x0 x1 3 inb_S1x8x24x68x120_S1x8x1x68x120_0_0_3_0_0 _ (plane3 x0 x1) x
  rcases List.mem_cons.mp hpc with rfl | hpc
  · exact plane_in_block x0 x1 2 inb_S1x8x24x68x120_S1x8x1x68x120_0_0_2_0_0 _ (plane2 x0 x1) x
  rcases List.mem_cons.mp hpc with rfl | hpc
  · exact plane_in_block x0 x1 1 inb_S1x8x24x68x120_S1x8x1x68x120_0_0_1_0_0 _ (plane1 x0 x1) x
  rcases List.mem_cons.mp hpc with rfl | hpc
  · exact plane_in_block x0 x1 0 inb_S1x8x24x68x120_S1x8x1x68x120_0_0_0_0_0 _ (plane0 x0 x1) x
  nomatch hpc

/-! ## From the blocks to the array -/

variable (m : (ℓ : Loc nD τ sig) → Buf (Elt Ideal) ℓ) (ρ : Dev nD → PrngReg)

/-- The left and the right feature map as the region finds them. -/
abbrev featL (c : Dev nD) : SFeat.Idx → EReal := V m c main_arg0
abbrev featR (c : Dev nD) : SFeat.Idx → EReal := V m c main_arg1

/-- The printed index maps, decided over the thirty-two points: the output block of point (b, q) sits at block
    index (b, q, 0, 0, 0), and each input block at (b, q, 0, 0). -/
theorem idx_facts : ∀ t : Fin cfg0.N,
    win0_2.index t (0 : Fin 5) < 8 ∧ win0_2.index t (1 : Fin 5) < 4 ∧ win0_2.index t (2 : Fin 5) = 0
    ∧ win0_2.index t (3 : Fin 5) = 0 ∧ win0_2.index t (4 : Fin 5) = 0
    ∧ win0_0.index t (0 : Fin 4) = win0_2.index t (0 : Fin 5) ∧ win0_0.index t (1 : Fin 4) = win0_2.index t (1 : Fin 5)
    ∧ win0_0.index t (2 : Fin 4) = 0 ∧ win0_0.index t (3 : Fin 4) = 0
    ∧ win0_1.index t (0 : Fin 4) = win0_2.index t (0 : Fin 5) ∧ win0_1.index t (1 : Fin 4) = win0_2.index t (1 : Fin 5)
    ∧ win0_1.index t (2 : Fin 4) = 0 ∧ win0_1.index t (3 : Fin 4) = 0 :=
  (by decide +kernel : ∀ t : Fin grid0.N, _)

/-- Every (batch entry, channel group) is some point's. -/
theorem idx_onto : ∀ (q0 : Fin 8) (q1 : Fin 4), ∃ t : Fin cfg0.N, win0_2.index t = ![q0.val, q1.val, 0, 0, 0] :=
  (by decide +kernel : ∀ (q0 : Fin 8) (q1 : Fin 4), ∃ t : Fin grid0.N, win0_2.index t = ![q0.val, q1.val, 0, 0, 0])

/-- The left map's staged block at point t, at an entry: batch entry and channel group are the point's. -/
theorem blockL_apply (c : Dev nD) (t : Fin cfg0.N) (k : Fin 8) (h : Fin 68) (w : Fin 120)
    (hb : win0_2.index t (0 : Fin 5) < 8) (hq : win0_2.index t (1 : Fin 5) < 4) :
    iblk m c 0 t (ix4 (0 : Fin 1) k h w)
      = featL m c (ix4 ⟨win0_2.index t (0 : Fin 5), hb⟩
          ⟨win0_2.index t (1 : Fin 5) * 8 + k.val, by have := k.isLt; omega⟩ h w) := by
  obtain ⟨-, -, -, -, -, e0, e1, e2, e3, -⟩ := idx_facts t
  show V m c main_arg0 (((cfg0.win 0).blk t).view.emb (ix4 (0 : Fin 1) k h w)) = V m c main_arg0 _
  refine congrArg (V m c main_arg0) (funext fun a => Fin.ext ?_)
  match a with
  | ⟨0, _⟩ => show win0_0.index t (0 : Fin 4) * 1 + 1 * 0 = win0_2.index t (0 : Fin 5); omega
  | ⟨1, _⟩ => show win0_0.index t (1 : Fin 4) * 8 + 1 * k.val = win0_2.index t (1 : Fin 5) * 8 + k.val; omega
  | ⟨2, _⟩ => show win0_0.index t (2 : Fin 4) * 68 + 1 * h.val = h.val; omega
  | ⟨3, _⟩ => show win0_0.index t (3 : Fin 4) * 120 + 1 * w.val = w.val; omega

/-- The right map's staged block at point t, at an entry. -/
theorem blockR_apply (c : Dev nD) (t : Fin cfg0.N) (k : Fin 8) (h : Fin 68) (w : Fin 120)
    (hb : win0_2.index t (0 : Fin 5) < 8) (hq : win0_2.index t (1 : Fin 5) < 4) :
    iblk m c 1 t (ix4 (0 : Fin 1) k h w)
      = featR m c (ix4 ⟨win0_2.index t (0 : Fin 5), hb⟩
          ⟨win0_2.index t (1 : Fin 5) * 8 + k.val, by have := k.isLt; omega⟩ h w) := by
  obtain ⟨-, -, -, -, -, -, -, -, -, e0, e1, e2, e3⟩ := idx_facts t
  show V m c main_arg1 (((cfg0.win 1).blk t).view.emb (ix4 (0 : Fin 1) k h w)) = V m c main_arg1 _
  refine congrArg (V m c main_arg1) (funext fun a => Fin.ext ?_)
  match a with
  | ⟨0, _⟩ => show win0_1.index t (0 : Fin 4) * 1 + 1 * 0 = win0_2.index t (0 : Fin 5); omega
  | ⟨1, _⟩ => show win0_1.index t (1 : Fin 4) * 8 + 1 * k.val = win0_2.index t (1 : Fin 5) * 8 + k.val; omega
  | ⟨2, _⟩ => show win0_1.index t (2 : Fin 4) * 68 + 1 * h.val = h.val; omega
  | ⟨3, _⟩ => show win0_1.index t (3 : Fin 4) * 120 + 1 * w.val = w.val; omega

/-- WHAT POINT t WRITES BACK is block t of the cost volume of the two feature maps. -/
theorem flushed_eq (c : Dev nD) (t : Fin cfg0.N) :
    (dats m 0 c).flushed 2 t
      = ((cfg0.win 2).blk t).view.read (Elt Ideal) (costVolume (featL m c) (featR m c)) := by
  rw [Cert.KernelIdeal.Value.flushed2, out_block]
  obtain ⟨hb, hq, z2, z3, z4, -⟩ := idx_facts t
  funext j
  show blkCost (iblk m c 0 t) (iblk m c 1 t) (j 2).val ⟨(j 1).val, (j 1).isLt⟩ ⟨(j 3).val, (j 3).isLt⟩ ⟨(j 4).val, (j 4).isLt⟩
    = costAt (featL m c) (featR m c) (((cfg0.win 2).blk t).view.emb j 0) (((cfg0.win 2).blk t).view.emb j 1)
        (((cfg0.win 2).blk t).view.emb j 2) (((cfg0.win 2).blk t).view.emb j 3) (((cfg0.win 2).blk t).view.emb j 4)
  have j0 : (j 0).val < 1 := (j 0).isLt
  refine blkCost_eq_costAt (featL m c) (featR m c) (iblk m c 0 t) (iblk m c 1 t)
    ⟨win0_2.index t (0 : Fin 5), hb⟩ (win0_2.index t (1 : Fin 5)) hq
    (fun k h w => blockL_apply m c t k h w hb hq) (fun k h w => blockR_apply m c t k h w hb hq)
    _ _ _ _ _ _ _ _ _ ?_ ?_ ?_ ?_ ?_
  · show win0_2.index t (0 : Fin 5) * 1 + 1 * (j 0).val = win0_2.index t (0 : Fin 5); omega
  · show win0_2.index t (1 : Fin 5) * 8 + 1 * (j 1).val = win0_2.index t (1 : Fin 5) * 8 + (j 1).val; omega
  · show win0_2.index t (2 : Fin 5) * 24 + 1 * (j 2).val = (j 2).val; omega
  · show win0_2.index t (3 : Fin 5) * 68 + 1 * (j 3).val = (j 3).val; omega
  · show win0_2.index t (4 : Fin 5) * 120 + 1 * (j 4).val = (j 4).val; omega

/-- An index of the volume is in point t's block iff each coordinate is in the block's range on its axis. -/
theorem mem_blk (t : Fin cfg0.N) (i : S8x32x24x68x120.Idx) :
    i ∈ ((cfg0.win 2).blk t).view.set ↔ ∀ a : Fin 5, win0_2.index t a * S1x8x24x68x120.size a ≤ (i a).val
      ∧ (i a).val < win0_2.index t a * S1x8x24x68x120.size a + S1x8x24x68x120.size a := by
  show i ∈ ((View.whole main_v0).slice (win0_2.rect t)).set ↔ _
  rw [View.set_slice_whole, Rect.mem_set_unit]
  exact Iff.rfl

/-- Every entry of the volume lies in the block of the point of its batch entry and channel group. -/
theorem covered (i : S8x32x24x68x120.Idx) :
    ∃ t : Fin cfg0.N, (cfg0.win 2).flush t = true ∧ i ∈ ((cfg0.win 2).blk t).view.set := by
  have hi0 : (i 0).val < 8 := (i 0).isLt
  have hi1 : (i 1).val < 32 := (i 1).isLt
  have hi2 : (i 2).val < 24 := (i 2).isLt
  have hi3 : (i 3).val < 68 := (i 3).isLt
  have hi4 : (i 4).val < 120 := (i 4).isLt
  obtain ⟨t, ht⟩ := idx_onto ⟨(i 0).val, hi0⟩ ⟨(i 1).val / 8, by omega⟩
  have q0 : win0_2.index t (0 : Fin 5) = (i 0).val := congrFun ht 0
  have q1 : win0_2.index t (1 : Fin 5) = (i 1).val / 8 := congrFun ht 1
  have q2 : win0_2.index t (2 : Fin 5) = 0 := congrFun ht 2
  have q3 : win0_2.index t (3 : Fin 5) = 0 := congrFun ht 3
  have q4 : win0_2.index t (4 : Fin 5) = 0 := congrFun ht 4
  refine ⟨t, flush0_2 t, ?_⟩
  rw [mem_blk]
  intro a
  match a with
  | ⟨0, _⟩ => show win0_2.index t (0 : Fin 5) * 1 ≤ (i 0).val ∧ (i 0).val < win0_2.index t (0 : Fin 5) * 1 + 1; omega
  | ⟨1, _⟩ => show win0_2.index t (1 : Fin 5) * 8 ≤ (i 1).val ∧ (i 1).val < win0_2.index t (1 : Fin 5) * 8 + 8; omega
  | ⟨2, _⟩ => show win0_2.index t (2 : Fin 5) * 24 ≤ (i 2).val ∧ (i 2).val < win0_2.index t (2 : Fin 5) * 24 + 24; omega
  | ⟨3, _⟩ => show win0_2.index t (3 : Fin 5) * 68 ≤ (i 3).val ∧ (i 3).val < win0_2.index t (3 : Fin 5) * 68 + 68; omega
  | ⟨4, _⟩ => show win0_2.index t (4 : Fin 5) * 120 ≤ (i 4).val ∧ (i 4).val < win0_2.index t (4 : Fin 5) * 120 + 120; omega

/-- THE ARRAY after the run: the cost volume of the two argument arrays. -/
theorem final (c : Dev nD) :
    (dats m 0 c).arrAt 2 cfg0.N
      = costVolume (m ((c : Thread nD τ).loc main_arg0)) (m ((c : Thread nD τ).loc main_arg1)) :=
  (dats m 0 c).arrAt_eq_of_cover 2 (costVolume (featL m c) (featR m c)) (fun t _ => flushed_eq m c t) covered

/-- The kernel's run re-posted: the result array at the cost volume of the arguments, the arguments unchanged. -/
theorem run : θ_run defs (onTc (τ := τ) (main (F := Ideal))) ⟨m, fun _ => 0, ρ⟩ fun r => ∀ c : Dev nD,
      r.2.mem ((c : Thread nD τ).loc main_v0)
        = costVolume (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.CostVolume.Body

end
-- ==== Proof.RefIndex.lean ====
/-
  The two integer tables of the reference, read at explicit coordinates (d, w) with d < 24 and w < 120.

  Both tables start from the 32-bit word  w − d  (the column iota minus the disparity iota). The coordinates are
  far below 2³¹, so that word read as a signed integer is the integer w − d itself: non-negative exactly when d ≤ w.

  * The mask "w − d ≥ 0" is therefore the bit 1 when d ≤ w and the bit 0 when w < d, and its conversion to a float at
    the ideal instance is the extended real 1, respectively 0.
  * The gather's start index is clip(w − d, 0, 119), followed by the wrap-around of negative indices
    (add 120 where the clipped value is negative, which never happens after a clip to [0, 119]). The clip of a
    negative word is 0 and the clip of a word in [0, 119] is the word, so in both cases the entry is the word of the
    natural number w − d (truncated subtraction: 0 when w < d).
-/
import proofs.«428127_j52802327937445_3_alg».proof.Proof.Gen.ReferenceIdeal.Read
import Idealize.ShloMosaic.Lib.ValueIdx
import Idealize.ShloMosaic.Lib.StableHlo.Predicate

noncomputable section

namespace Cert.CostVolume.Ref

open Cert.ReferenceIdeal Cert.ReferenceIdeal.Read Idealize.ShloMosaic Idealize.ShloMosaic.ValueIdx
open Idealize.ShloMosaic.StableHlo.Predicate

/-! ## The word w − d -/

/-- The word w − d read as a signed integer is the integer w − d. -/
theorem toInt_sub_coords (d : Fin 24) (w : Fin 120) :
    (IntOp.subi (BitVec.ofNat 32 w.val) (BitVec.ofNat 32 d.val)).toInt = (w.val : Int) - (d.val : Int) := by
  have hd := d.isLt
  have hw := w.isLt
  unfold IntOp.subi
  rw [BitVec.toInt_sub, toInt_ofNat_small w.val (by omega), toInt_ofNat_small d.val (by omega)]
  rw [Int.bmod_eq_of_le (by omega) (by omega)]

/-- Where d ≤ w the word w − d is the word of the natural number w − d. -/
theorem sub_coords_of_le (d : Fin 24) (w : Fin 120) (h : d.val ≤ w.val) :
    IntOp.subi (BitVec.ofNat 32 w.val) (BitVec.ofNat 32 d.val) = BitVec.ofNat 32 (w.val - d.val) := by
  have hd := d.isLt
  have hw := w.isLt
  unfold IntOp.subi
  apply BitVec.eq_of_toNat_eq
  simp only [BitVec.toNat_sub, BitVec.toNat_ofNat]
  omega

/-! ## The mask -/

/-- Where d ≤ w the comparison w − d ≥ 0 holds: the bit 1. -/
theorem mask_word_of_le (d : Fin 24) (w : Fin 120) (h : d.val ≤ w.val) :
    IntOp.cmpi .sge (IntOp.subi (BitVec.ofNat 32 w.val) (BitVec.ofNat 32 d.val)) 0#32 = 1#1 := by
  unfold IntOp.cmpi
  rw [ofBool_eq_one_iff]
  show (0#32 : BitVec 32).sle _ = true
  unfold BitVec.sle
  rw [decide_eq_true_eq, toInt_sub_coords, show (0#32 : BitVec 32).toInt = 0 from by decide]
  omega

/-- Where w < d it fails: the bit 0. -/
theorem mask_word_of_lt (d : Fin 24) (w : Fin 120) (h : w.val < d.val) :
    IntOp.cmpi .sge (IntOp.subi (BitVec.ofNat 32 w.val) (BitVec.ofNat 32 d.val)) 0#32 = 0#1 := by
  apply eq_zero_of_ne_one
  unfold IntOp.cmpi
  rw [ofBool_eq_one_iff]
  show ¬ (0#32 : BitVec 32).sle _ = true
  unfold BitVec.sle
  rw [decide_eq_true_eq, toInt_sub_coords, show (0#32 : BitVec 32).toInt = 0 from by decide]
  omega

/-- The bit 1 converts to the extended real 1 … -/
theorem uitofp_one : FloatOps.uitofp (F := Ideal) .f32 (1#1 : BitVec 1) = (1 : EReal) := by
  show (((1#1 : BitVec 1).toNat : ℝ) : EReal) = 1
  rw [show (1#1 : BitVec 1).toNat = 1 from by decide, Nat.cast_one, EReal.coe_one]

/-- … and the bit 0 to 0. -/
theorem uitofp_zero : FloatOps.uitofp (F := Ideal) .f32 (0#1 : BitVec 1) = (0 : EReal) := by
  show (((0#1 : BitVec 1).toNat : ℝ) : EReal) = 0
  rw [show (0#1 : BitVec 1).toNat = 0 from by decide, Nat.cast_zero, EReal.coe_zero]

/-! ## The tables of the program at (d, w) -/

/-- The program's difference table holds the word w − d. -/
theorem v6_at (d : Fin 24) (w : Fin 120) :
    val_main_v6 (F := Ideal) (ix2 d w) = IntOp.subi (BitVec.ofNat 32 w.val) (BitVec.ofNat 32 d.val) := by
  rw [val_main_v6_apply, val_main_v4_apply, val_main_v3_apply, val_main_v2_apply, val_main_v5_apply,
    val_main_v1_apply, val_main_v0_apply]

/-- The program's mask table, as floats: 1 where d ≤ w … -/
theorem v9_at_of_le (d : Fin 24) (w : Fin 120) (h : d.val ≤ w.val) :
    val_main_v9 (F := Ideal) (ix2 d w) = (1 : EReal) := by
  rw [val_main_v9_apply, val_main_v8_apply, v6_at, val_main_v7_apply, val_main_c_apply, mask_word_of_le d w h,
    uitofp_one]

/-- … and 0 where w < d. -/
theorem v9_at_of_lt (d : Fin 24) (w : Fin 120) (h : w.val < d.val) :
    val_main_v9 (F := Ideal) (ix2 d w) = (0 : EReal) := by
  rw [val_main_v9_apply, val_main_v8_apply, v6_at, val_main_v7_apply, val_main_c_apply, mask_word_of_lt d w h,
    uitofp_zero]

/-! ## The start index -/

/-- The clip of the word w − d to [0, 119] is the word of the natural number w − d (0 when w < d). -/
theorem clip_coords (d : Fin 24) (w : Fin 120) :
    IntOp.minsi 119#32 (IntOp.maxsi 0#32 (IntOp.subi (BitVec.ofNat 32 w.val) (BitVec.ofNat 32 d.val)))
      = BitVec.ofNat 32 (w.val - d.val) := by
  have hd := d.isLt
  have hw := w.isLt
  have h0 : (0#32 : BitVec 32).toInt = 0 := by decide
  have h119 : (119#32 : BitVec 32).toInt = 119 := by decide
  have hD := toInt_sub_coords d w
  -- the maximum with 0
  have hmax : IntOp.maxsi 0#32 (IntOp.subi (BitVec.ofNat 32 w.val) (BitVec.ofNat 32 d.val))
      = BitVec.ofNat 32 (w.val - d.val) := by
    unfold IntOp.maxsi
    by_cases hle : d.val ≤ w.val
    · rw [if_neg (by
        unfold BitVec.slt
        rw [decide_eq_true_eq, hD, h0]; omega)]
      exact sub_coords_of_le d w hle
    · rw [if_pos (by
        unfold BitVec.slt
        rw [decide_eq_true_eq, hD, h0]; omega)]
      rw [show w.val - d.val = 0 from by omega]
  rw [hmax]
  -- the minimum with 119
  unfold IntOp.minsi
  rw [if_neg (by
    unfold BitVec.slt
    rw [decide_eq_true_eq, h119, toInt_ofNat_small (w.val - d.val) (by omega)]; omega)]

/-- The program's start-index table holds the word of the natural number w − d. -/
theorem v15_at (d : Fin 24) (w : Fin 120) :
    val_main_v15 (F := Ideal) (ix2 d w) = BitVec.ofNat 32 (w.val - d.val) := by
  have hd := d.isLt
  have hw := w.isLt
  have hclip : val_main_v10 (F := Ideal) (ix2 d w) = BitVec.ofNat 32 (w.val - d.val) := by
    rw [val_main_v10_apply, val_main_call0_v4_apply, val_main_call0_v3_apply, val_main_c_1_apply,
      val_main_call0_v2_apply, val_main_call0_v1_apply, val_main_call0_v0_apply, val_main_c_0_apply, v6_at]
    exact clip_coords d w
  -- the clipped value is not negative, so the wrap-around keeps it
  have hneg : val_main_v12 (F := Ideal) (ix2 d w) = 0#1 := by
    rw [val_main_v12_apply, hclip, val_main_v11_apply, val_main_c_2_apply]
    apply eq_zero_of_ne_one
    unfold IntOp.cmpi
    rw [ofBool_eq_one_iff]
    show ¬ (BitVec.ofNat 32 (w.val - d.val)).slt 0#32 = true
    unfold BitVec.slt
    rw [decide_eq_true_eq, toInt_ofNat_small (w.val - d.val) (by omega),
      show (0#32 : BitVec 32).toInt = 0 from by decide]
    omega
  rw [val_main_v15_apply, hneg, select_zero, hclip]

/-- Read as a signed integer, the start index is the natural number w − d. -/
theorem v15_at_toNat (d : Fin 24) (w : Fin 120) :
    (val_main_v15 (F := Ideal) (ix2 d w)).toInt.toNat = w.val - d.val := by
  have hd := d.isLt
  have hw := w.isLt
  rw [v15_at, toInt_ofNat_small (w.val - d.val) (by omega)]
  exact Int.toNat_natCast _

end Cert.CostVolume.Ref

end
-- ==== Proof.RefGather.lean ====
/-
  The reference's gather, read at an index.

  The gather takes the right feature map [8, 32, 68, 120] and a table of start indices [24, 120, 1] to an array
  [8, 32, 68, 24, 120]: the first three result axes are offset axes over the whole of the operand's first three
  axes, the operand's last axis is collapsed (slice size 1) and is the one axis the start index names, and the
  table's last axis holds the index vector (of length one). There are no batching axes. So the result at
  (b, c, h, d, w) is the operand at (b, c, h, k), where k is the table's entry at (d, w, 0) read as a signed
  integer and clamped into [0, 119]: on each of the first three operand axes the start is 0 and the offset
  coordinate is the result's coordinate; on the last the offset coordinate is 0 and the start is the clamped entry.
-/
import proofs.«428127_j52802327937445_3_alg».proof.Proof.Gen.ReferenceIdeal.Read
import Idealize.ShloMosaic.Lib.ValueIdx

noncomputable section

namespace Cert.CostVolume.Ref

open Cert.ReferenceIdeal Idealize.ShloMosaic Idealize.ShloMosaic.ValueIdx

variable [Facts₀]

local notation "G" => gather_S8x32x68x120_S24x120x1_S8x32x68x24x120_012_3_n_n_3_2_832681

/-- An operand axis whose number is not 3 is not in the start index map … -/
private theorem not_mem_startIndexMap (a : Fin S8x32x68x120.rank) (ha : a.val ≠ 3) : a ∉ GatherDims.startIndexMap G :=
  fun hm => ha (congrArg Fin.val (List.mem_singleton.mp hm))

/-- … and is neither collapsed nor batching: the result has an offset axis for it. -/
private theorem mem_sKept_of_ne (a : Fin S8x32x68x120.rank) (ha : a.val ≠ 3) : a ∈ GatherDims.sKept G :=
  (GatherDims.mem_sKept _ _).mpr ⟨fun hc => ha (congrArg Fin.val (List.mem_singleton.mp hc)), List.not_mem_nil⟩

/-- The reference's gather at (b, c, h, d, w) is the operand at (b, c, h, k), k the start index at (d, w, 0) read
    signed and clamped into [0, 119]. -/
theorem gather_at {α : Type} {n : Nat} (x : S8x32x68x120.Idx → α) (idx : IVec S24x120x1 n)
    (b : Fin 8) (c : Fin 32) (h : Fin 68) (d : Fin 24) (w : Fin 120) :
    Host.gather G x idx (ix5 b c h d w)
      = x (ix4 b c h (⟨min (idx (ix3 d w (0 : Fin 1))).toInt.toNat 119, by omega⟩ : Fin 120)) := by
  unfold Host.gather
  congr 1
  funext a
  refine Fin.ext ?_
  show GatherDims.start G (ix5 b c h d w) idx a + GatherDims.batchCoord G (ix5 b c h d w) a + GatherDims.offCoord G (ix5 b c h d w) a = _
  -- no batching axes
  rw [GatherDims.batchCoord_eq_zero _ _ _ List.not_mem_nil, Nat.add_zero]
  match a with
  | ⟨0, h0⟩ =>
    -- an offset axis: start 0, the offset coordinate is the result's coordinate 0
    unfold GatherDims.start
    rw [dif_neg (not_mem_startIndexMap ⟨0, h0⟩ (show (0 : Nat) ≠ 3 by decide)), Nat.zero_add]
    unfold GatherDims.offCoord
    rw [dif_pos (mem_sKept_of_ne ⟨0, h0⟩ (show (0 : Nat) ≠ 3 by decide))]
    rfl
  | ⟨1, h1⟩ =>
    unfold GatherDims.start
    rw [dif_neg (not_mem_startIndexMap ⟨1, h1⟩ (show (1 : Nat) ≠ 3 by decide)), Nat.zero_add]
    unfold GatherDims.offCoord
    rw [dif_pos (mem_sKept_of_ne ⟨1, h1⟩ (show (1 : Nat) ≠ 3 by decide))]
    rfl
  | ⟨2, h2⟩ =>
    unfold GatherDims.start
    rw [dif_neg (not_mem_startIndexMap ⟨2, h2⟩ (show (2 : Nat) ≠ 3 by decide)), Nat.zero_add]
    unfold GatherDims.offCoord
    rw [dif_pos (mem_sKept_of_ne ⟨2, h2⟩ (show (2 : Nat) ≠ 3 by decide))]
    rfl
  | ⟨3, h3⟩ =>
    -- the collapsed axis: offset coordinate 0, the start is the clamped entry
    have hm : (⟨3, h3⟩ : Fin S8x32x68x120.rank) ∈ GatherDims.startIndexMap G := List.mem_singleton.mpr rfl
    rw [GatherDims.offCoord_eq_zero _ _ _
      (fun hk => ((GatherDims.mem_sKept _ _).mp hk).1 (List.mem_singleton.mpr rfl)), Nat.add_zero]
    unfold GatherDims.start
    rw [dif_pos hm]
    have hsi : GatherDims.siIdx G (ix5 b c h d w)
        ⟨List.idxOf (⟨3, h3⟩ : Fin S8x32x68x120.rank) (GatherDims.startIndexMap G), List.idxOf_lt_length_iff.2 hm⟩
          = ix3 d w (0 : Fin 1) := by
      funext e; refine Fin.ext ?_
      match e with
      | ⟨0, _⟩ => rfl
      | ⟨1, _⟩ => rfl
      | ⟨2, _⟩ => rfl
    rw [hsi]
    rfl

end Cert.CostVolume.Ref

end
-- ==== Proof.RefValue.lean ====
/-
  The reference program's value is the cost volume.

  Read at (b, c, d, h, w) the reference's result is, after its final transposition, the product
      (L(b, c, h, w) − R(b, c, h, k)) · m
  where m is the mask "w − d ≥ 0" as a float and k is the gather's start index clip(w − d, 0, 119) at (d, w).
  Where d ≤ w the mask is 1 and k = w − d: the product is the shifted difference. Where w < d the mask is 0, and a
  product with 0 is 0 on the extended reals whatever the difference is: the column read there does not matter.
-/
import proofs.«428127_j52802327937445_3_alg».proof.Proof.Gen.ReferenceIdeal.Read
import proofs.«428127_j52802327937445_3_alg».proof.Proof.Spec
import proofs.«428127_j52802327937445_3_alg».proof.Proof.RefIndex
import proofs.«428127_j52802327937445_3_alg».proof.Proof.RefGather

noncomputable section

namespace Cert.CostVolume.Ref

open Cert.ReferenceIdeal Cert.ReferenceIdeal.Read Cert.ReferenceIdeal.Gen Idealize.ShloMosaic Idealize.ShloMosaic.ValueIdx

/-! ## The layout operations' index maps, by coordinates -/

/-- The final transposition exchanges the disparity and the row. -/
theorem idx24_at (b : Fin 8) (c : Fin 32) (d : Fin 24) (h : Fin 68) (w : Fin 120) :
    idx_main_v24 (ix5 b c d h w) = ix5 b c h d w := by
  funext a
  match a with
  | ⟨0, _⟩ => rfl
  | ⟨1, _⟩ => rfl
  | ⟨2, _⟩ => rfl
  | ⟨3, _⟩ => rfl
  | ⟨4, _⟩ => rfl

/-- The left feature map, broadcast along the disparity axis, reads L(b, c, h, w). -/
theorem v19_at (x0 : SFeat.Idx → EReal) (b : Fin 8) (c : Fin 32) (h : Fin 68) (d : Fin 24) (w : Fin 120) :
    val_main_v19 (F := Ideal) x0 (ix5 b c h d w) = x0 (ix4 b c h w) := by
  rw [val_main_v19_apply, val_main_v18_apply]
  congr 1
  funext a
  match a with
  | ⟨0, _⟩ => rfl
  | ⟨1, _⟩ => rfl
  | ⟨2, _⟩ => rfl
  | ⟨3, _⟩ => rfl

/-- The mask, broadcast along the batch, channel and row axes, reads the mask table at (d, w). -/
theorem v22_at (b : Fin 8) (c : Fin 32) (h : Fin 68) (d : Fin 24) (w : Fin 120) :
    val_main_v22 (F := Ideal) (ix5 b c h d w) = val_main_v9 (F := Ideal) (ix2 d w) := by
  rw [val_main_v22_apply, val_main_v21_apply]
  congr 1
  funext a
  match a with
  | ⟨0, _⟩ => rfl
  | ⟨1, _⟩ => rfl

/-- The start indices as a [24, 120, 1] array read the start-index table at (d, w). -/
theorem v16_at (d : Fin 24) (w : Fin 120) :
    val_main_v16 (F := Ideal) (ix3 d w (0 : Fin 1)) = val_main_v15 (F := Ideal) (ix2 d w) := by
  rw [val_main_v16_apply]
  congr 1
  funext a
  match a with
  | ⟨0, _⟩ => rfl
  | ⟨1, _⟩ => rfl

/-! ## The gathered right feature -/

/-- Where d ≤ w the gather reads R(b, c, h, w − d). -/
theorem v17_at_of_le (x1 : SFeat.Idx → EReal) (b : Fin 8) (c : Fin 32) (h : Fin 68) (d : Fin 24) (w : Fin 120)
    (k : Fin 120) (hk : k.val = w.val - d.val) :
    val_main_v17 (F := Ideal) x1 (ix5 b c h d w) = x1 (ix4 b c h k) := by
  have hw := w.isLt
  unfold val_main_v17
  rw [gather_at]
  refine congrArg (fun k' : Fin 120 => x1 (ix4 b c h k')) (Fin.ext ?_)
  show min (val_main_v16 (F := Ideal) (ix3 d w (0 : Fin 1))).toInt.toNat 119 = k.val
  rw [v16_at, v15_at_toNat, hk]
  omega

/-! ## The value -/

/-- The reference's result, as a function of the two feature maps, is the cost volume. -/
theorem reference_eq (x0 x1 : Cert.CostVolume.SFeat.Idx → EReal) :
    Cert.ReferenceIdeal.Read.val_main_v24 (F := Ideal) x0 x1 = Cert.CostVolume.costVolume x0 x1 := by
  funext j
  obtain ⟨b, c, d, h, w, rfl⟩ : ∃ b c d h w, j = ix5 b c d h w := ⟨_, _, _, _, _, eq_ix5 j⟩
  rw [costVolume_ix5, val_main_v24_apply, idx24_at, val_main_v23_apply, val_main_v20_apply, v19_at, v22_at,
    Ideal.mulf_def, Ideal.subf_def]
  by_cases hle : d.val ≤ w.val
  · -- the shifted column exists: mask 1, the gather reads column w − d
    have hw := w.isLt
    rw [v9_at_of_le d w hle, mul_one, v17_at_of_le x1 b c h d w ⟨w.val - d.val, by omega⟩ rfl]
    exact (costAt_of_le x0 x1 b c d h w hle _ rfl).symm
  · -- it does not: mask 0
    have hlt : w.val < d.val := by omega
    rw [v9_at_of_lt d w hlt, mul_zero, costAt_of_lt x0 x1 b c d h w hlt]

end Cert.CostVolume.Ref

end
-- ==== Proof.lean ====
/-
  The certificate of the cost-volume kernel against its jnp reference, over the extended reals.

  Both programs compute, for two feature maps L, R : [8, 32, 68, 120] and the disparities d = 0 … 23,
      cost(b, c, d, h, w) = L(b, c, h, w) − R(b, c, h, w − d)   where d ≤ w,   and 0 where w < d
  (Proof/Spec.lean, `costVolume`).  The kernel builds, per grid point (a batch entry and a group of eight
  channels) and per disparity, the right block shifted d columns with zeros in front, subtracts it from the
  left block, multiplies by the indicator of d ≤ w and stores the plane; the reference gathers the right map at
  the clipped columns clip(w − d, 0, 119), subtracts, multiplies by the same indicator and transposes.
  Where d ≤ w both indicators are 1 and both subtract R at column w − d.  Where w < d both indicators are 0,
  and on the extended reals a product with 0 is 0 whatever the other factor is — so that the kernel subtracts
  a padding zero there while the reference subtracts R at column 0 makes no difference, and no finiteness of
  the inputs is needed.

  The kernel side: Proof/ShiftOps.lean (the shifted tile and the indicator at an entry), Proof/PieceOps.lean
  (one stored plane at an entry; the block as one function), Proof/KernelPlanes.lean (the body's twenty-four
  stores), Proof/BlockOfVolume.lean and Proof/KernelValue.lean (a point's block is a block of the volume; the
  blocks tile the array).  The reference side: Proof/RefIndex.lean (the mask and start-index tables),
  Proof/RefGather.lean (the gather at an index), Proof/RefValue.lean (the reference's value is the volume).
  The three frames are the generated ones; the idealization rewrote nothing, so `preserves` is trivial.
-/
import proofs.«428127_j52802327937445_3_alg».proof.Defs
import proofs.«428127_j52802327937445_3_alg».proof.Proof.Gen.Kernel
import proofs.«428127_j52802327937445_3_alg».proof.Proof.Gen.Kernel.Skeleton
import proofs.«428127_j52802327937445_3_alg».proof.Proof.Gen.Kernel.Launch
import proofs.«428127_j52802327937445_3_alg».proof.Proof.Gen.Kernel.Points
import proofs.«428127_j52802327937445_3_alg».proof.Proof.Gen.Kernel.Frame
import proofs.«428127_j52802327937445_3_alg».proof.Proof.Gen.KernelIdeal
import proofs.«428127_j52802327937445_3_alg».proof.Proof.Gen.KernelIdeal.Skeleton
import proofs.«428127_j52802327937445_3_alg».proof.Proof.Gen.KernelIdeal.Launch
import proofs.«428127_j52802327937445_3_alg».proof.Proof.Gen.KernelIdeal.Points
import proofs.«428127_j52802327937445_3_alg».proof.Proof.Gen.KernelIdeal.Frame
import proofs.«428127_j52802327937445_3_alg».proof.Proof.Gen.ReferenceIdeal
import proofs.«428127_j52802327937445_3_alg».proof.Proof.Gen.Pre_finite_inputs
import proofs.«428127_j52802327937445_3_alg».proof.Proof.Gen.KernelIdeal.Value
import proofs.«428127_j52802327937445_3_alg».proof.Proof.Gen.ReferenceIdeal.Run
import proofs.«428127_j52802327937445_3_alg».proof.Proof.Gen.ReferenceIdeal.Read
import proofs.«428127_j52802327937445_3_alg».proof.Proof.KernelValue
import proofs.«428127_j52802327937445_3_alg».proof.Proof.RefValue
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the cost volume of the (agreeing) arguments in their result arrays. -/
theorem algebraic : Cert.algebraic_KernelIdeal_ReferenceIdeal := by
  intro m ρ m' ρ' _ hagree
  refine ⟨fun c => Cert.CostVolume.costVolume
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.CostVolume.Body.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, Cert.CostVolume.Ref.reference_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
